-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512 : Shape := ⟨1, ![512]⟩
abbrev S512x128 : Shape := ⟨2, ![512, 128]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel

variable [Facts]

def fn {F : FTy → Type} [FloatOps F] (main_arg0 : IVec S512 32) (main_arg1 : FVec F S512x128 .f32) : IVec S_ 1 :=
  let main_v0 : FVec F S512x128 .f32 := Host.absf main_arg1
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  main_v3
-- ==== Kernel.lean ====
abbrev S512 : Shape := ⟨1, ![512]⟩
abbrev S512x128 : Shape := ⟨2, ![512, 128]⟩
abbrev S512x512 : Shape := ⟨2, ![512, 512]⟩
abbrev S512x1 : Shape := ⟨2, ![512, 1]⟩
abbrev S1x512 : Shape := ⟨2, ![1, 512]⟩
abbrev S1x1 : Shape := ⟨2, ![1, 1]⟩
abbrev S128x128 : Shape := ⟨2, ![128, 128]⟩
abbrev S128 : Shape := ⟨1, ![128]⟩
abbrev S1x128 : Shape := ⟨2, ![1, 128]⟩
abbrev S128x1 : Shape := ⟨2, ![128, 1]⟩
abbrev S128x128x1 : Shape := ⟨3, ![128, 128, 1]⟩
abbrev S128x1x128 : Shape := ⟨3, ![128, 1, 128]⟩
abbrev S128x128x128 : Shape := ⟨3, ![128, 128, 128]⟩
abbrev S1x128x128 : Shape := ⟨3, ![1, 128, 128]⟩
abbrev S128x1x1 : Shape := ⟨3, ![128, 1, 1]⟩
abbrev S1x1x1 : Shape := ⟨3, ![1, 1, 1]⟩
abbrev S_ : Shape := ⟨0, ![]⟩

abbrev nBuf : Space → Nat
  | .hbm => 7
  | .vmem => 9
  | .smem => 0
  | _ => 0

abbrev bufTy : (tb : Table) → Fin (tcTables nBuf tb) → BufTy
  | .hbm, ⟨0, _⟩ => ⟨S512, .i32⟩
  | .hbm, ⟨1, _⟩ => ⟨S512x128, .f32⟩
  | .hbm, ⟨2, _⟩ => ⟨S512x512, .f32⟩
  | .hbm, ⟨3, _⟩ => ⟨S1x1, .f32⟩
  | .hbm, ⟨4, _⟩ => ⟨S1x1, .f32⟩
  | .hbm, ⟨5, _⟩ => ⟨S_, .f32⟩
  | .hbm, ⟨6, _⟩ => ⟨S_, .f32⟩
  | .local _ .vmem, ⟨0, _⟩ => ⟨S512x128, .f32⟩
  | .local _ .vmem, ⟨1, _⟩ => ⟨S512x512, .f32⟩
  | .local _ .vmem, ⟨2, _⟩ => ⟨S512x512, .f32⟩
  | .local _ .vmem, ⟨3, _⟩ => ⟨S512, .i32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | _, _ => ⟨S512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg2_0 : Ref sig .tc := ⟨.vmem, 4, rfl⟩
abbrev cc1_stg3_0 : Ref sig .tc := ⟨.vmem, 5, rfl⟩
abbrev cc1_scratch0 : Ref sig .tc := ⟨.vmem, 6, rfl⟩
abbrev cc1_scratch1 : Ref sig .tc := ⟨.vmem, 7, rfl⟩
abbrev cc1_scratch2 : Ref sig .tc := ⟨.vmem, 8, rfl⟩
abbrev cc0_sem0_0 : DmaSem sig := 0
abbrev cc0_sem1_0 : DmaSem sig := 1
abbrev cc1_sem0_0 : DmaSem sig := 2
abbrev cc1_sem1_0 : DmaSem sig := 3
abbrev cc1_sem2_0 : DmaSem sig := 4
abbrev cc1_sem3_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨3, ![4, 4, 4], ![false, false, false]⟩

def k1_mult1 (i : grid1.Coords) : BitVec 32 :=
  let arg0 : BitVec 32 := BitVec.ofNat 32 (i 0).val
  let c128_i32 : BitVec 32 := 128#32
  let v12 : BitVec 32 := Scalar.muli arg0 c128_i32
  v12
def k1_mult2 (i : grid1.Coords) : BitVec 32 :=
  let arg1 : BitVec 32 := BitVec.ofNat 32 (i 1).val
  let c128_i32_5 : BitVec 32 := 128#32
  let v14 : BitVec 32 := Scalar.muli arg1 c128_i32_5
  v14
def k1_mult3 (i : grid1.Coords) : BitVec 32 :=
  let arg2 : BitVec 32 := BitVec.ofNat 32 (i 2).val
  let c128_i32_6 : BitVec 32 := 128#32
  let v16 : BitVec 32 := Scalar.muli arg2 c128_i32_6
  v16
def k1_off1 (i : grid1.Coords) : Fin 2 → Nat :=
  let arg0 : BitVec 32 := BitVec.ofNat 32 (i 0).val
  let c128_i32 : BitVec 32 := 128#32
  let v12 : BitVec 32 := Scalar.muli arg0 c128_i32
  let v13 : BitVec 32 := v12
  let v18 : Index := Scalar.indexCast v13
  let arg1 : BitVec 32 := BitVec.ofNat 32 (i 1).val
  let c128_i32_5 : BitVec 32 := 128#32
  let v14 : BitVec 32 := Scalar.muli arg1 c128_i32_5
  let v15 : BitVec 32 := v14
  let v19 : Index := Scalar.indexCast v15
  ![v18.toNat, v19.toNat]
def k1_off2 (i : grid1.Coords) : Fin 2 → Nat :=
  let arg0 : BitVec 32 := BitVec.ofNat 32 (i 0).val
  let c128_i32 : BitVec 32 := 128#32
  let v12 : BitVec 32 := Scalar.muli arg0 c128_i32
  let v13 : BitVec 32 := v12
  let v22 : Index := Scalar.indexCast v13
  let arg2 : BitVec 32 := BitVec.ofNat 32 (i 2).val
  let c128_i32_6 : BitVec 32 := 128#32
  let v16 : BitVec 32 := Scalar.muli arg2 c128_i32_6
  let v17 : BitVec 32 := v16
  let v23 : Index := Scalar.indexCast v17
  ![v22.toNat, v23.toNat]
def k1_off3 (i : grid1.Coords) : Fin 1 → Nat :=
  let arg0 : BitVec 32 := BitVec.ofNat 32 (i 0).val
  let c128_i32 : BitVec 32 := 128#32
  let v12 : BitVec 32 := Scalar.muli arg0 c128_i32
  let v13 : BitVec 32 := v12
  let v26 : Index := Scalar.indexCast v13
  ![v26.toNat]
def k1_off4 (i : grid1.Coords) : Fin 1 → Nat :=
  let arg1 : BitVec 32 := BitVec.ofNat 32 (i 1).val
  let c128_i32_5 : BitVec 32 := 128#32
  let v14 : BitVec 32 := Scalar.muli arg1 c128_i32_5
  let v15 : BitVec 32 := v14
  let v28 : Index := Scalar.indexCast v15
  ![v28.toNat]
def k1_off5 (i : grid1.Coords) : Fin 1 → Nat :=
  let arg2 : BitVec 32 := BitVec.ofNat 32 (i 2).val
  let c128_i32_6 : BitVec 32 := 128#32
  let v16 : BitVec 32 := Scalar.muli arg2 c128_i32_6
  let v17 : BitVec 32 := v16
  let v30 : Index := Scalar.indexCast v17
  ![v30.toNat]
def k1_cond2 (i : grid1.Coords) : BitVec 1 :=
  let arg0 : BitVec 32 := BitVec.ofNat 32 (i 0).val
  let c3_i32 : BitVec 32 := 3#32
  let v5 : BitVec 1 := Scalar.cmpi .eq arg0 c3_i32
  let arg1 : BitVec 32 := BitVec.ofNat 32 (i 1).val
  let c3_i32_2 : BitVec 32 := 3#32
  let v6 : BitVec 1 := Scalar.cmpi .eq arg1 c3_i32_2
  let v7 : BitVec 1 := Scalar.andi v5 v6
  let arg2 : BitVec 32 := BitVec.ofNat 32 (i 2).val
  let c3_i32_3 : BitVec 32 := 3#32
  let v8 : BitVec 1 := Scalar.cmpi .eq arg2 c3_i32_3
  let v9 : BitVec 1 := Scalar.andi v7 v8
  let v139 : BitVec 32 := Scalar.extui v9
  let c0_i32_29 : BitVec 32 := 0#32
  let v140 : BitVec 1 := Scalar.cmpi .ne v139 c0_i32_29
  v140

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S512x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 1 → Memref sig .tc .vmem S512 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

class Facts₀ : Prop where
  inb_S512x128_S512x128_0_0 : ∀ a, (![0, 0] : Fin 2 → Nat) a + S512x128.size a ≤ S512x128.size a
  h_S512x128 : 0 < S512x128.numel
  reduces_S512x128_S512 : S512x128.Reduces [1] S512
  shapeCasts_S512_S512x1 : S512.ShapeCasts S512x1
  shapeCasts_S512_S1x512 : S512.ShapeCasts S1x512
  broadcasts_S512x1_S512x512 : S512x1.Broadcasts S512x512
  broadcasts_S1x512_S512x512 : S1x512.Broadcasts S512x512
  inb_S512x512_S512x512_0_0 : ∀ a, (![0, 0] : Fin 2 → Nat) a + S512x512.size a ≤ S512x512.size a
  h_S512x512 : 0 < S512x512.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S128x128 : 0 < S128x128.numel
  shapeCasts_S128x128_S128x128 : S128x128.ShapeCasts S128x128
  h_S128 : 0 < S128.numel
  iota_S1x128_d1_w32 : S1x128.Iotas .tc 32 [1]
  shapeCasts_S1x128_S128 : S1x128.ShapeCasts S128
  shapeCasts_S128_S128x1 : S128.ShapeCasts S128x1
  shapeCasts_S128_S1x128 : S128.ShapeCasts S1x128
  broadcasts_S128x1_S128x128 : S128x1.Broadcasts S128x128
  broadcasts_S1x128_S128x128 : S1x128.Broadcasts S128x128
  natLt_1_32 : 1 < 32
  shapeCasts_S128x128_S128x128x1 : S128x128.ShapeCasts S128x128x1
  shapeCasts_S128x128_S128x1x128 : S128x128.ShapeCasts S128x1x128
  broadcasts_S128x128x1_S128x128x128 : S128x128x1.Broadcasts S128x128x128
  broadcasts_S128x1x128_S128x128x128 : S128x1x128.Broadcasts S128x128x128
  shapeCasts_S128x128_S1x128x128 : S128x128.ShapeCasts S1x128x128
  broadcasts_S1x128x128_S128x128x128 : S1x128x128.Broadcasts S128x128x128
  reduces_S128x128x128_S128x128 : S128x128x128.Reduces [2] S128x128
  reduces_S128x128x1_S128x1 : S128x128x1.Reduces [1] S128x1
  shapeCasts_S128x1_S128x1x1 : S128x1.ShapeCasts S128x1x1
  reduces_S128x1x1_S1x1 : S128x1x1.Reduces [0] S1x1
  shapeCasts_S1x1_S1x1x1 : S1x1.ShapeCasts S1x1x1
  shapeCasts_S1x1x1_S1x1 : S1x1x1.ShapeCasts S1x1
  shapeCasts_S1x1_S_ : S1x1.ShapeCasts S_
  dot_S512x128_S512x128_S512x512_1_1_0_0_n_n_wf : DotDims.WF S512x128 S512x128 S512x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S512x128.size a
  hwx0_0 : ∀ i : grid0.Coords, EltTy.bits .f32 = 32 ∨ (Rect.block (s := S512x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hrank1 : 0 < grid1.rank
  k1_mult1_dvd : ∀ i : grid1.Coords, 128 ∣ (k1_mult1 i).toNat
  k1_mult2_dvd : ∀ i : grid1.Coords, 128 ∣ (k1_mult2 i).toNat
  k1_mult3_dvd : ∀ i : grid1.Coords, 128 ∣ (k1_mult3 i).toNat
  k1_off1_inb : ∀ i : grid1.Coords, ∀ a, (k1_off1 i) a + S128x128.size a ≤ S512x512.size a
  k1_off2_inb : ∀ i : grid1.Coords, ∀ a, (k1_off2 i) a + S128x128.size a ≤ S512x512.size a
  k1_off3_inb : ∀ i : grid1.Coords, ∀ a, (k1_off3 i) a + S128.size a ≤ S512.size a
  k1_off4_inb : ∀ i : grid1.Coords, ∀ a, (k1_off4 i) a + S128.size a ≤ S512.size a
  k1_off5_inb : ∀ i : grid1.Coords, ∀ a, (k1_off5 i) a + S128.size a ≤ S512.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S512x512.size a
  hwx1_0 : ∀ i : grid1.Coords, EltTy.bits .f32 = 32 ∨ (Rect.block (s := S512x512) S512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512.size a ≤ S512.size a
  hwx1_1 : ∀ i : grid1.Coords, EltTy.bits .i32 = 32 ∨ (Rect.block (s := S512) S512.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf

abbrev win0_0 : Pipeline.Window sig grid0 :=
  Pipeline.Window.ofSpec (Memref.whole main_arg1) S512x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S512x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S1x1.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

class Facts : Prop extends Facts₀ where

variable [Facts]
-- ==== ReferenceIdeal.lean ====
abbrev S512 : Shape := ⟨1, ![512]⟩
abbrev S512x128 : Shape := ⟨2, ![512, 128]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S128x512 : Shape := ⟨2, ![128, 512]⟩
abbrev S512x512x1 : Shape := ⟨3, ![512, 512, 1]⟩
abbrev S512x1x512 : Shape := ⟨3, ![512, 1, 512]⟩
abbrev S512x512x512 : Shape := ⟨3, ![512, 512, 512]⟩
abbrev S1x512x512 : Shape := ⟨3, ![1, 512, 512]⟩

abbrev nBuf : Space → Nat
  | .hbm => 87
  | .vmem => 0
  | .smem => 0
  | _ => 0

abbrev bufTy : (tb : Table) → Fin (tcTables nBuf tb) → BufTy
  | .hbm, ⟨0, _⟩ => ⟨S512, .i32⟩
  | .hbm, ⟨1, _⟩ => ⟨S512x128, .f32⟩
  | .hbm, ⟨2, _⟩ => ⟨S512x128, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S1x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S128x512, .f32⟩
  | .hbm, ⟨11, _⟩ => ⟨S512x512, .f32⟩
  | .hbm, ⟨12, _⟩ => ⟨S_, .f32⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S_, .f32⟩
  | .hbm, ⟨17, _⟩ => ⟨S512x512, .f32⟩
  | .hbm, ⟨18, _⟩ => ⟨S512x512, .f32⟩
  | .hbm, ⟨19, _⟩ => ⟨S_, .f32⟩
  | .hbm, ⟨20, _⟩ => ⟨S512x512, .f32⟩
  | .hbm, ⟨21, _⟩ => ⟨S512x512, .i1⟩
  | .hbm, ⟨22, _⟩ => ⟨S_, .f32⟩
  | .hbm, ⟨23, _⟩ => ⟨S_, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S_, .f32⟩
  | .hbm, ⟨28, _⟩ => ⟨S_, .f32⟩
  | .hbm, ⟨29, _⟩ => ⟨S512x512, .f32⟩
  | .hbm, ⟨30, _⟩ => ⟨S512x512, .f32⟩
  | .hbm, ⟨31, _⟩ => ⟨S512x512x1, .f32⟩
  | .hbm, ⟨32, _⟩ => ⟨S512x1x512, .f32⟩
  | .hbm, ⟨33, _⟩ => ⟨S512x512x512, .f32⟩
  | .hbm, ⟨34, _⟩ => ⟨S512x512x512, .f32⟩
  | .hbm, ⟨35, _⟩ => ⟨S512x512x512, .f32⟩
  | .hbm, ⟨36, _⟩ => ⟨S_, .f32⟩
  | .hbm, ⟨37, _⟩ => ⟨S512x512x512, .f32⟩
  | .hbm, ⟨38, _⟩ => ⟨S512x512x512, .f32⟩
  | .hbm, ⟨39, _⟩ => ⟨S512x512, .i32⟩
  | .hbm, ⟨40, _⟩ => ⟨S512x512, .i32⟩
  | .hbm, ⟨41, _⟩ => ⟨S_, .i32⟩
  | .hbm, ⟨42, _⟩ => ⟨S512x512, .i32⟩
  | .hbm, ⟨43, _⟩ => ⟨S512x512, .i32⟩
  | .hbm, ⟨44, _⟩ => ⟨S512x512, .i1⟩
  | .hbm, ⟨45, _⟩ => ⟨S512x512, .i1⟩
  | .hbm, ⟨46, _⟩ => ⟨S512x512x1, .i1⟩
  | .hbm, ⟨47, _⟩ => ⟨S512x1x512, .i1⟩
  | .hbm, ⟨48, _⟩ => ⟨S512x512x512, .i1⟩
  | .hbm, ⟨49, _⟩ => ⟨S512x512x512, .i1⟩
  | .hbm, ⟨50, _⟩ => ⟨S512x512x512, .i1⟩
  | .hbm, ⟨51, _⟩ => ⟨S1x512x512, .i1⟩
  | .hbm, ⟨52, _⟩ => ⟨S512x512x512, .i1⟩
  | .hbm, ⟨53, _⟩ => ⟨S512x512x512, .i1⟩
  | .hbm, ⟨54, _⟩ => ⟨S1x512, .i32⟩
  | .hbm, ⟨55, _⟩ => ⟨S512x1, .i32⟩
  | .hbm, ⟨56, _⟩ => ⟨S512x512, .i32⟩
  | .hbm, ⟨57, _⟩ => ⟨S512x512, .i32⟩
  | .hbm, ⟨58, _⟩ => ⟨S512x512, .i1⟩
  | .hbm, ⟨59, _⟩ => ⟨S512x512x1, .i1⟩
  | .hbm, ⟨60, _⟩ => ⟨S512x1x512, .i1⟩
  | .hbm, ⟨61, _⟩ => ⟨S512x1x512, .i1⟩
  | .hbm, ⟨62, _⟩ => ⟨S512x512x512, .i1⟩
  | .hbm, ⟨63, _⟩ => ⟨S512x512x512, .i1⟩
  | .hbm, ⟨64, _⟩ => ⟨S512x512x512, .i1⟩
  | .hbm, ⟨65, _⟩ => ⟨S512x512x512, .i1⟩
  | .hbm, ⟨66, _⟩ => ⟨S512x512x512, .f32⟩
  | .hbm, ⟨67, _⟩ => ⟨S512x512x512, .f32⟩
  | .hbm, ⟨68, _⟩ => ⟨S_, .f32⟩
  | .hbm, ⟨69, _⟩ => ⟨S512x512x512, .f32⟩
  | .hbm, ⟨70, _⟩ => ⟨S512x512x512, .f32⟩
  | .hbm, ⟨71, _⟩ => ⟨S_, .f32⟩
  | .hbm, ⟨72, _⟩ => ⟨S512x512x512, .f32⟩
  | .hbm, ⟨73, _⟩ => ⟨S512x512x512, .i1⟩
  | .hbm, ⟨74, _⟩ => ⟨S512x512x512, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_6 : Ref sig .tc := ⟨.hbm, 68, rfl⟩
abbrev main_v54 : Ref sig .tc := ⟨.hbm, 69, rfl⟩
abbrev main_v55 : Ref sig .tc := ⟨.hbm, 70, rfl⟩
abbrev main_cst_7 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_8 : Ref sig .tc := ⟨.hbm, 75, rfl⟩
abbrev main_v59 : Ref sig .tc := ⟨.hbm, 76, rfl⟩
abbrev main_cst_9 : Ref sig .tc := ⟨.hbm, 77, rfl⟩
abbrev main_v60 : Ref sig .tc := ⟨.hbm, 78, rfl⟩
abbrev main_cst_10 : Ref sig .tc := ⟨.hbm, 79, rfl⟩
abbrev main_v61 : Ref sig .tc := ⟨.hbm, 80, rfl⟩
abbrev main_v62 : Ref sig .tc := ⟨.hbm, 81, rfl⟩
abbrev main_cst_11 : Ref sig .tc := ⟨.hbm, 82, rfl⟩
abbrev main_v63 : Ref sig .tc := ⟨.hbm, 83, rfl⟩
abbrev main_cst_12 : Ref sig .tc := ⟨.hbm, 84, rfl⟩
abbrev main_v64 : Ref sig .tc := ⟨.hbm, 85, rfl⟩
abbrev main_v65 : Ref sig .tc := ⟨.hbm, 86, rfl⟩

abbrev nD : Nat := 1
abbrev τ : Topo := Topo.v7x

variable {F : FTy → Type} [FloatOps F]

class Facts₀ : Prop where
  reducesTo_S512x128_S512_d1 : S512x128.ReducesTo [1] S512
  h_S_ : 0 < S_.numel
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  transposes_S512x128_S128x512_1_0 : S512x128.Transposes [1, 0] S128x512
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  bcast_S512x512_S512x1x512_0_2 : S512x512.BroadcastsInDim S512x1x512 (![0, 2] : Fin 2 → Fin S512x1x512.rank)
  bcast_S512x512x1_S512x512x512_0_1_2 : S512x512x1.BroadcastsInDim S512x512x512 (![0, 1, 2] : Fin 3 → Fin S512x512x512.rank)
  bcast_S512x1x512_S512x512x512_0_1_2 : S512x1x512.BroadcastsInDim S512x512x512 (![0, 1, 2] : Fin 3 → Fin S512x512x512.rank)
  bcast_S_S512x512x512 : S_.BroadcastsInDim S512x512x512 (![] : Fin 0 → Fin S512x512x512.rank)
  bcast_S512x512_S1x512x512_1_2 : S512x512.BroadcastsInDim S1x512x512 (![1, 2] : Fin 2 → Fin S1x512x512.rank)
  bcast_S1x512x512_S512x512x512_0_1_2 : S1x512x512.BroadcastsInDim S512x512x512 (![0, 1, 2] : Fin 3 → Fin S512x512x512.rank)
  reducesTo_S512x512x512_S_d0_1_2 : S512x512x512.ReducesTo [0, 1, 2] S_
  dot_S512x128_S128x512_S512x512_1_0_0_1_n_n_wf : DotDims.WF S512x128 S128x512 S512x512 [1] [0] [0] [1] [] []

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

class Facts : Prop extends Facts₀ where

variable [Facts]
-- ==== Proof.Bits.KFun.lean ====
/-
  The triplet kernel's arithmetic as plain functions of the two staged arrays (the distance table and the labels), at
  any float instance: what a grid point loads, the three 128³ tiles it computes (mask, loss, indicator), one step of the
  three running sums, and the sums after the first `n + 1` points; and the two quotients the last point stores.
-/
import proofs.«423472_j36249523978553_4_alg».proof.Proof.Gen.Kernel.Skeleton
import proofs.«423472_j36249523978553_4_alg».proof.Proof.Gen.Kernel.Launch
import Idealize.ShloMosaic.Lib.Pipeline.FrameBody

noncomputable section

namespace Cert.Kernel.Hand

open Idealize.ShloMosaic Idealize.SL.Sem Cert.Kernel Cert.Kernel.Gen

variable {F : FTy → Type} [FloatOps F]

/-- The rectangles the body loads through: the anchor × positive and anchor × negative 128 × 128 blocks of the distance
    table, and the anchor, positive and negative 128-blocks of the labels, at grid point `i`. -/
abbrev rAP (i : grid1.Coords) : Rect S512x512 := Rect.unit (s := S512x512) (k1_off1 i) S128x128.size (k1_off1_inb i)
abbrev rAN (i : grid1.Coords) : Rect S512x512 := Rect.unit (s := S512x512) (k1_off2 i) S128x128.size (k1_off2_inb i)
abbrev rA (i : grid1.Coords) : Rect S512 := Rect.unit (s := S512) (k1_off3 i) S128.size (k1_off3_inb i)
abbrev rP (i : grid1.Coords) : Rect S512 := Rect.unit (s := S512) (k1_off4 i) S128.size (k1_off4_inb i)
abbrev rN (i : grid1.Coords) : Rect S512 := Rect.unit (s := S512) (k1_off5 i) S128.size (k1_off5_inb i)

/-- The mask tile of grid point `i`. -/
def tileMsk (i : grid1.Coords) (lab : Vec F S512 .i32) : FVec F S128x128x128 .f32 :=
  k1_pay13 (View.ld lab (rA i)) (View.ld lab (rP i)) (View.ld lab (rN i)) (k1_pay8 i) (k1_pay9 i) (k1_pay10 i) (k1_pay11 i) (k1_pay12 i)

/-- The loss tile of grid point `i`. -/
def tileTl (i : grid1.Coords) (pd : Vec F S512x512 .f32) (lab : Vec F S512 .i32) : FVec F S128x128x128 .f32 :=
  k1_pay14 (k1_pay6 (View.ld pd (rAP i))) (k1_pay7 (View.ld pd (rAN i))) (View.ld lab (rA i)) (View.ld lab (rP i)) (View.ld lab (rN i))
    (k1_pay8 i) (k1_pay9 i) (k1_pay10 i) (k1_pay11 i) (k1_pay12 i)

/-- The indicator tile of grid point `i`. -/
def tileVld (i : grid1.Coords) (pd : Vec F S512x512 .f32) (lab : Vec F S512 .i32) : FVec F S128x128x128 .f32 :=
  k1_pay15 (k1_pay6 (View.ld pd (rAP i))) (k1_pay7 (View.ld pd (rAN i))) (View.ld lab (rA i)) (View.ld lab (rP i)) (View.ld lab (rN i))
    (k1_pay8 i) (k1_pay9 i) (k1_pay10 i) (k1_pay11 i) (k1_pay12 i)

/-- The three running sums: loss, indicator, mask. -/
abbrev Acc (F : FTy → Type) [FloatOps F] : Type := Vec F S1x1 .f32 × Vec F S1x1 .f32 × Vec F S1x1 .f32

/-- What the first point resets them to. -/
def acc0 : Acc F := (k1_pay3, k1_pay4, k1_pay5)

/-- One point's update of the running sums. -/
def step (i : grid1.Coords) (pd : Vec F S512x512 .f32) (lab : Vec F S512 .i32) (a : Acc F) : Acc F :=
  (k1_pay16 (tileTl i pd lab) a.1, k1_pay17 (tileVld i pd lab) a.2.1, k1_pay18 (tileMsk i lab) a.2.2)

/-- Position `n` of the grid as a point (positions past the grid wrap; they are never consulted). -/
def pt (n : ℕ) : Fin cfg1.N := ⟨n % 64, lt_of_lt_of_eq (Nat.mod_lt _ (by decide)) N_1.symm⟩

theorem pt_val (t : Fin cfg1.N) : pt t.val = t :=
  Fin.ext (Nat.mod_eq_of_lt (lt_of_lt_of_eq t.isLt N_1))

/-- The running sums after the body at position `n`: reset at the first point, then one step per point. -/
def accAt (pd : Vec F S512x512 .f32) (lab : Vec F S512 .i32) : ℕ → Acc F
  | 0 => step (grid1.coords (pt 0)) pd lab acc0
  | n + 1 => step (grid1.coords (pt (n + 1))) pd lab (accAt pd lab n)

/-- The two quotients the last point stores. -/
def lossOf (a : Acc F) : Vec F S1x1 .f32 := k1_pay1 a.1 a.2.1
def fracOf (a : Acc F) : Vec F S1x1 .f32 := k1_pay2 a.2.1 a.2.2

end Cert.Kernel.Hand

end
-- ==== Proof.Bits.Region0.lean ====
/-
  The distance kernel's region (one grid point; the embeddings block in, the distance table out), at any float
  instance and at any contents `V` of the TensorCore's buffers when the region is entered: what the body leaves in the
  output's staging buffer, the body's triple, the pipeline's proof data and the body obligation.
-/
import proofs.«423472_j36249523978553_4_alg».proof.Proof.Gen.Kernel.Launch
import proofs.«423472_j36249523978553_4_alg».proof.Proof.Gen.Kernel.Skeleton
import proofs.«423472_j36249523978553_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds its block at the point, for any proof data over `V` whose body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles of the two staging buffers. -/
abbrev rIn0 : Rect S512x128 := Rect.unit (s := S512x128) ![0, 0] S512x128.size inb_S512x128_S512x128_0_0
abbrev rOut0 : Rect S512x512 := Rect.unit (s := S512x512) ![0, 0] S512x512.size inb_S512x512_S512x512_0_0

/-- What the body leaves in the output's staging buffer: its one store, of the distance payload of the loaded block. -/
def out0_1 (x0 : Vec F S512x128 .f32) : Vec F S512x512 .f32 :=
  View.canon [⟨rOut0, k0_pay1 (View.ld x0 rIn0)⟩]

/-- The store covers the buffer. -/
theorem cover0_1 (p0 : Vec F S512x512 .f32) (y : S512x512.Idx) :
    ∃ pc ∈ ([⟨rOut0, p0⟩] : List (View.Piece (Elt F) S512x512 .f32)), y ∈ pc.1.set :=
  View.cover_of_tiled [⟨rOut0, p0⟩] S512x512.size (by rfl) y

set_option maxHeartbeats 1000000 in
/-- The body on whole staging memrefs, the input's at `x0` and the output's at anything, runs to the continuation
    holding the input's as it was and the output's at `out0_1 x0`. -/
theorem sound_kernel0 (c : Dev nD) (E : Set ℕ) (i : grid0.Coords) (arg1 : Memref sig .tc .vmem S512x128 .f32) (harg1 : arg1.IsWhole) (arg2 : Memref sig .tc .vmem S512x512 .f32) (harg2 : arg2.IsWhole)
    (x0 : Vec F S512x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__pdist_kernel i arg1 harg1 arg2 harg2) K := by
  simp only [cc0__pdist_kernel_eq_skeleton]; unfold cc0__pdist_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the region on core `c`: the arrays as the region finds them; after the body the input's buffer at
    its block and the output's at `out0_1` of it; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.Body1.lean ====
/-
  The triplet kernel's body on whole staging and scratch memrefs, at any float instance, in its three cases: the grid's
  first point (the running sums reset, then updated), a middle point (updated), the last point (updated, then the two
  quotients stored). In each the two staged arrays are read and left as they were and the three running sums end at one
  `step` of the point's tiles.
-/
import proofs.«423472_j36249523978553_4_alg».proof.Proof.Gen.Kernel.Launch
import proofs.«423472_j36249523978553_4_alg».proof.Proof.Gen.Kernel.Skeleton
import proofs.«423472_j36249523978553_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«423472_j36249523978553_4_alg».proof.Proof.Bits.KFun

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The condition of the body's first `scf.if` (the reset at the grid's first point), from the grid coordinates. -/
abbrev cond1_0 (i : grid1.Coords) : Prop :=
  Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32 = 1#1
/-- The condition of its second `scf.if` (the two quotients stored at the grid's last point). -/
abbrev cond1_1 (i : grid1.Coords) : Prop := k1_cond2 i = 1#1

/-- The one rectangle of a 1 × 1 buffer, and that its offsets are zero. -/
abbrev rS : Rect S1x1 := Rect.unit (s := S1x1) ![0, 0] S1x1.size inb_S1x1_S1x1_0_0
theorem hz2 : (![0, 0] : Fin 2 → ℕ) = fun _ => 0 := by
  funext a; match a with | ⟨0, _⟩ => rfl | ⟨1, _⟩ => rfl

/-- A list of stores through it, the last one first, covers the buffer. -/
theorem coverS (p : Vec F S1x1 .f32) (L : List (View.Piece (Elt F) S1x1 .f32)) (y : S1x1.Idx) :
    ∃ pc ∈ ((⟨rS, p⟩ : View.Piece (Elt F) S1x1 .f32) :: L), y ∈ pc.1.set :=
  ⟨⟨rS, p⟩, List.mem_cons_self, by
    obtain ⟨pc, hpc, hy⟩ := View.cover_of_tiled [(⟨rS, p⟩ : View.Piece (Elt F) S1x1 .f32)] S1x1.size (by rfl) y
    simp only [List.mem_singleton] at hpc; subst hpc; exact hy⟩

set_option maxHeartbeats 4000000 in
/-- A middle point: neither conditional taken; the outputs' buffers untouched. -/
theorem run1_B (c : Dev nD) (E : Set ℕ) (i : grid1.Coords)
    (arg3 : Memref sig .tc .vmem S512x512 .f32) (harg3 : arg3.IsWhole) (arg4 : Memref sig .tc .vmem S512 .i32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (arg9 : Memref sig .tc .vmem S1x1 .f32) (harg9 : arg9.IsWhole)
    (hc0 : ¬cond1_0 i) (hc1 : ¬cond1_1 i)
    (x0 : Vec F S512x512 .f32) (x1 : Vec F S512 .i32) (xo2 xo3 : Vec F S1x1 .f32) (s : Acc F) (K : PUnit → sProp 𝕄) :
    iprop(owns (c : Thread nD τ) arg3 fullShare x0 ∗ owns (c : Thread nD τ) arg4 fullShare x1
        ∗ owns (c : Thread nD τ) arg5 fullShare xo2 ∗ owns (c : Thread nD τ) arg6 fullShare xo3
        ∗ owns (c : Thread nD τ) arg7 fullShare s.1 ∗ owns (c : Thread nD τ) arg8 fullShare s.2.1 ∗ owns (c : Thread nD τ) arg9 fullShare s.2.2
        ∗ (iprop(owns (c : Thread nD τ) arg3 fullShare x0 ∗ owns (c : Thread nD τ) arg4 fullShare x1
            ∗ owns (c : Thread nD τ) arg5 fullShare xo2 ∗ owns (c : Thread nD τ) arg6 fullShare xo3
            ∗ owns (c : Thread nD τ) arg7 fullShare (step i x0 x1 s).1 ∗ owns (c : Thread nD τ) arg8 fullShare (step i x0 x1 s).2.1
            ∗ owns (c : Thread nD τ) arg9 fullShare (step i x0 x1 s).2.2) -∗ K ⟨⟩))
      ⊢ wp frame (wpE (defs₀ (F := F)) Variants.none c none) E (cc1__triplet_kernel i arg3 harg3 arg4 harg4 arg5 harg5 arg6 harg6 arg7 harg7 arg8 harg8 arg9 harg9) K := by
  simp only [cc1__triplet_kernel_eq_skeleton]; unfold cc1__triplet_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (coverS _ _)]
    rw [View.canon_cons_unit_zero hz2]
    simp only [View.readAt_eq_ld, harg3.read_unread, harg4.read_unread, harg5.read_unread, harg6.read_unread, harg7.read_unread, harg8.read_unread, harg9.read_unread,
      View.ld_unit_zero (S := S1x1) hz2, View.readCov_unit_zero (S := S1x1) _ hz2, View.canon_cons_unit_zero (S := S1x1) hz2]
    rfl
  isplitl [H8]
  · iexists _; isplitr
    swap; · iexact H8
    ipureintro
    sl_unfold_words
    rw [View.read_writes_eq_canon _ _ _ (coverS _ _)]
    rw [View.canon_cons_unit_zero hz2]
    simp only [View.readAt_eq_ld, harg3.read_unread, harg4.read_unread, harg5.read_unread, harg6.read_unread, harg7.read_unread, harg8.read_unread, harg9.read_unread,
      View.ld_unit_zero (S := S1x1) hz2, View.readCov_unit_zero (S := S1x1) _ hz2, View.canon_cons_unit_zero (S := S1x1) hz2]
    rfl
  iexists _; isplitr
  swap; · iexact H9
  ipureintro
  sl_unfold_words
  rw [View.read_writes_eq_canon _ _ _ (coverS _ _)]
  rw [View.canon_cons_unit_zero hz2]
  simp only [View.readAt_eq_ld, harg3.read_unread, harg4.read_unread, harg5.read_unread, harg6.read_unread, harg7.read_unread, harg8.read_unread, harg9.read_unread,
    View.ld_unit_zero (S := S1x1) hz2, View.readCov_unit_zero (S := S1x1) _ hz2, View.canon_cons_unit_zero (S := S1x1) hz2]
  rfl

set_option maxHeartbeats 4000000 in
/-- The first point: the running sums, found at anything, are reset and then updated; the outputs' buffers untouched. -/
theorem run1_A (c : Dev nD) (E : Set ℕ) (i : grid1.Coords)
    (arg3 : Memref sig .tc .vmem S512x512 .f32) (harg3 : arg3.IsWhole) (arg4 : Memref sig .tc .vmem S512 .i32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (arg9 : Memref sig .tc .vmem S1x1 .f32) (harg9 : arg9.IsWhole)
    (hc0 : cond1_0 i) (hc1 : ¬cond1_1 i)
    (x0 : Vec F S512x512 .f32) (x1 : Vec F S512 .i32) (xo2 xo3 : Vec F S1x1 .f32) (K : PUnit → sProp 𝕄) :
    iprop(owns (c : Thread nD τ) arg3 fullShare x0 ∗ owns (c : Thread nD τ) arg4 fullShare x1
        ∗ owns (c : Thread nD τ) arg5 fullShare xo2 ∗ owns (c : Thread nD τ) arg6 fullShare xo3
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1
            ∗ owns (c : Thread nD τ) arg5 fullShare xo2 ∗ owns (c : Thread nD τ) arg6 fullShare xo3
            ∗ owns (c : Thread nD τ) arg7 fullShare (step i x0 x1 acc0).1 ∗ owns (c : Thread nD τ) arg8 fullShare (step i x0 x1 acc0).2.1
            ∗ owns (c : Thread nD τ) arg9 fullShare (step i x0 x1 acc0).2.2) -∗ K ⟨⟩))
      ⊢ wp frame (wpE (defs₀ (F := F)) Variants.none c none) E (cc1__triplet_kernel i arg3 harg3 arg4 harg4 arg5 harg5 arg6 harg6 arg7 harg7 arg8 harg8 arg9 harg9) K := by
  simp only [cc1__triplet_kernel_eq_skeleton]; unfold cc1__triplet_kernel_skel
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := harg3.eq_unread hf3; obtain rfl := harg4.eq_unread hf4; obtain rfl := harg5.eq_unread hf5; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (coverS _ _)]
    rw [View.canon_cons_unit_zero hz2]
    simp only [View.readAt_eq_ld, harg3.read_unread, harg4.read_unread, harg5.read_unread, harg6.read_unread, harg7.read_unread, harg8.read_unread, harg9.read_unread,
      View.ld_unit_zero (S := S1x1) hz2, View.readCov_unit_zero (S := S1x1) _ hz2, View.canon_cons_unit_zero (S := S1x1) hz2]
    rfl
  isplitl [H8]
  · iexists _; isplitr
    swap; · iexact H8
    ipureintro
    sl_unfold_words
    rw [View.read_writes_eq_canon _ _ _ (coverS _ _)]
    rw [View.canon_cons_unit_zero hz2]
    simp only [View.readAt_eq_ld, harg3.read_unread, harg4.read_unread, harg5.read_unread, harg6.read_unread, harg7.read_unread, harg8.read_unread, harg9.read_unread,
      View.ld_unit_zero (S := S1x1) hz2, View.readCov_unit_zero (S := S1x1) _ hz2, View.canon_cons_unit_zero (S := S1x1) hz2]
    rfl
  iexists _; isplitr
  swap; · iexact H9
  ipureintro
  sl_unfold_words
  rw [View.read_writes_eq_canon _ _ _ (coverS _ _)]
  rw [View.canon_cons_unit_zero hz2]
  simp only [View.readAt_eq_ld, harg3.read_unread, harg4.read_unread, harg5.read_unread, harg6.read_unread, harg7.read_unread, harg8.read_unread, harg9.read_unread,
    View.ld_unit_zero (S := S1x1) hz2, View.readCov_unit_zero (S := S1x1) _ hz2, View.canon_cons_unit_zero (S := S1x1) hz2]
  rfl

set_option maxHeartbeats 4000000 in
/-- The last point: the running sums updated, then the two quotients stored into the outputs' buffers (found at anything). -/
theorem run1_C (c : Dev nD) (E : Set ℕ) (i : grid1.Coords)
    (arg3 : Memref sig .tc .vmem S512x512 .f32) (harg3 : arg3.IsWhole) (arg4 : Memref sig .tc .vmem S512 .i32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (arg9 : Memref sig .tc .vmem S1x1 .f32) (harg9 : arg9.IsWhole)
    (hc0 : ¬cond1_0 i) (hc1 : cond1_1 i)
    (x0 : Vec F S512x512 .f32) (x1 : Vec F S512 .i32) (s : Acc F) (K : PUnit → sProp 𝕄) :
    iprop(owns (c : Thread nD τ) arg3 fullShare x0 ∗ owns (c : Thread nD τ) arg4 fullShare x1
        ∗ (∃ d, owns (c : Thread nD τ) arg5 fullShare d) ∗ (∃ d, owns (c : Thread nD τ) arg6 fullShare d)
        ∗ owns (c : Thread nD τ) arg7 fullShare s.1 ∗ owns (c : Thread nD τ) arg8 fullShare s.2.1 ∗ owns (c : Thread nD τ) arg9 fullShare s.2.2
        ∗ (iprop(owns (c : Thread nD τ) arg3 fullShare x0 ∗ owns (c : Thread nD τ) arg4 fullShare x1
            ∗ owns (c : Thread nD τ) arg5 fullShare (lossOf (step i x0 x1 s)) ∗ owns (c : Thread nD τ) arg6 fullShare (fracOf (step i x0 x1 s))
            ∗ owns (c : Thread nD τ) arg7 fullShare (step i x0 x1 s).1 ∗ owns (c : Thread nD τ) arg8 fullShare (step i x0 x1 s).2.1
            ∗ owns (c : Thread nD τ) arg9 fullShare (step i x0 x1 s).2.2) -∗ K ⟨⟩))
      ⊢ wp frame (wpE (defs₀ (F := F)) Variants.none c none) E (cc1__triplet_kernel i arg3 harg3 arg4 harg4 arg5 harg5 arg6 harg6 arg7 harg7 arg8 harg8 arg9 harg9) K := by
  simp only [cc1__triplet_kernel_eq_skeleton]; unfold cc1__triplet_kernel_skel
  unfold owns
  iintro ⟨⟨%f3, %hf3, H3⟩, ⟨%f4, %hf4, H4⟩, ⟨%d5, %f5, -, H5⟩, ⟨%d6, %f6, -, H6⟩, ⟨%f7, %hf7, H7⟩, ⟨%f8, %hf8, H8⟩, ⟨%f9, %hf9, H9⟩, Hk⟩
  obtain rfl := harg3.eq_unread hf3; obtain rfl := harg4.eq_unread hf4
  obtain rfl := harg7.eq_unread hf7; obtain rfl := harg8.eq_unread hf8; obtain rfl := harg9.eq_unread hf9
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_words
    rw [View.read_writes_eq_canon _ _ _ (coverS _ _)]
    rw [View.canon_cons_unit_zero hz2]
    simp only [View.readAt_eq_ld, harg3.read_unread, harg4.read_unread, harg5.read_unread, harg6.read_unread, harg7.read_unread, harg8.read_unread, harg9.read_unread,
      View.ld_unit_zero (S := S1x1) hz2, View.readCov_unit_zero (S := S1x1) _ hz2, View.canon_cons_unit_zero (S := S1x1) hz2]
    rfl
  isplitl [H6]
  · iexists _; isplitr
    swap; · iexact H6
    ipureintro
    sl_unfold_words
    rw [View.read_writes_eq_canon _ _ _ (coverS _ _)]
    rw [View.canon_cons_unit_zero hz2]
    simp only [View.readAt_eq_ld, harg3.read_unread, harg4.read_unread, harg5.read_unread, harg6.read_unread, harg7.read_unread, harg8.read_unread, harg9.read_unread,
      View.ld_unit_zero (S := S1x1) hz2, View.readCov_unit_zero (S := S1x1) _ hz2, View.canon_cons_unit_zero (S := S1x1) hz2]
    rfl
  isplitl [H7]
  · iexists _; isplitr
    swap; · iexact H7
    ipureintro
    sl_unfold_words
    rw [View.read_writes_eq_canon _ _ _ (coverS _ _)]
    rw [View.canon_cons_unit_zero hz2]
    simp only [View.readAt_eq_ld, harg3.read_unread, harg4.read_unread, harg5.read_unread, harg6.read_unread, harg7.read_unread, harg8.read_unread, harg9.read_unread,
      View.ld_unit_zero (S := S1x1) hz2, View.readCov_unit_zero (S := S1x1) _ hz2, View.canon_cons_unit_zero (S := S1x1) hz2]
    rfl
  isplitl [H8]
  · iexists _; isplitr
    swap; · iexact H8
    ipureintro
    sl_unfold_words
    rw [View.read_writes_eq_canon _ _ _ (coverS _ _)]
    rw [View.canon_cons_unit_zero hz2]
    simp only [View.readAt_eq_ld, harg3.read_unread, harg4.read_unread, harg5.read_unread, harg6.read_unread, harg7.read_unread, harg8.read_unread, harg9.read_unread,
      View.ld_unit_zero (S := S1x1) hz2, View.readCov_unit_zero (S := S1x1) _ hz2, View.canon_cons_unit_zero (S := S1x1) hz2]
    rfl
  iexists _; isplitr
  swap; · iexact H9
  ipureintro
  sl_unfold_words
  rw [View.read_writes_eq_canon _ _ _ (coverS _ _)]
  rw [View.canon_cons_unit_zero hz2]
  simp only [View.readAt_eq_ld, harg3.read_unread, harg4.read_unread, harg5.read_unread, harg6.read_unread, harg7.read_unread, harg8.read_unread, harg9.read_unread,
    View.ld_unit_zero (S := S1x1) hz2, View.readCov_unit_zero (S := S1x1) _ hz2, View.canon_cons_unit_zero (S := S1x1) hz2]
  rfl

end Cert.Kernel.Hand

end
-- ==== Proof.Bits.Region1.lean ====
/-
  The triplet kernel's region (a 4 × 4 × 4 grid; the distance table and the labels staged whole once, the two 1 × 1
  results written back at the last point only, three 1 × 1 running sums carried in scratch from point to point), at any
  float instance and at any contents `V` of the TensorCore's buffers when the region is entered: which case each point is
  in, the running sums after each point, the region's invariant (the scratch at the sums the point before left), the
  pipeline's proof data and the body obligation.
-/
import proofs.«423472_j36249523978553_4_alg».proof.Proof.Gen.Kernel.Launch
import proofs.«423472_j36249523978553_4_alg».proof.Proof.Gen.Kernel.Skeleton
import proofs.«423472_j36249523978553_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«423472_j36249523978553_4_alg».proof.Proof.Bits.KFun
import proofs.«423472_j36249523978553_4_alg».proof.Proof.Bits.Body1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point, fetched there or not (the block index never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The two staged arrays: the distance table and the labels. -/
abbrev pdArr (c : Dev nD) : Vec F S512x512 .f32 := V c main_v0
abbrev labArr (c : Dev nD) : Vec F S512 .i32 := V c main_arg0

/-- Both input windows' block index is zero on every axis at every point: the block is the whole array. -/
theorem idx_facts1 : ∀ t : Fin cfg1.N, win1_0.index t (0 : Fin 2) = 0 ∧ win1_0.index t (1 : Fin 2) = 0 ∧ win1_1.index t (0 : Fin 1) = 0 :=
  (by decide +kernel : ∀ t : Fin grid1.N, _)

theorem iblk1_0_eq (c : Dev nD) (t : Fin cfg1.N) : iblk1 V c 0 t = pdArr V c := by
  obtain ⟨e0, e1, e2⟩ := idx_facts1 t
  funext y
  show V c main_v0 (((cfg1.win 0).blk t).view.emb y) = V c main_v0 y
  refine congrArg (V c main_v0) ?_
  funext a; apply Fin.ext
  match a with
  | ⟨0, _⟩ => show win1_0.index t (0 : Fin 2) * 512 + 1 * (y 0).val = (y 0).val; omega
  | ⟨1, _⟩ => show win1_0.index t (1 : Fin 2) * 512 + 1 * (y 1).val = (y 1).val; omega

theorem iblk1_1_eq (c : Dev nD) (t : Fin cfg1.N) : iblk1 V c 1 t = labArr V c := by
  obtain ⟨e0, e1, e2⟩ := idx_facts1 t
  funext y
  show V c main_arg0 (((cfg1.win 1).blk t).view.emb y) = V c main_arg0 y
  refine congrArg (V c main_arg0) ?_
  funext a; apply Fin.ext
  match a with
  | ⟨0, _⟩ => show win1_1.index t (0 : Fin 1) * 512 + 1 * (y 0).val = (y 0).val; omega

/-! ## The cases -/

/-- The reset is taken at the first point only, the quotients are stored at the last point only. -/
theorem hcond1_0 : ∀ t : Fin cfg1.N, cond1_0 (grid1.coords t) ↔ t.val = 0 :=
  (by decide +kernel : ∀ t : Fin grid1.N, cond1_0 (grid1.coords t) ↔ t.val = 0)
theorem hcond1_1 : ∀ t : Fin cfg1.N, cond1_1 (grid1.coords t) ↔ t.val = 63 :=
  (by decide +kernel : ∀ t : Fin grid1.N, cond1_1 (grid1.coords t) ↔ t.val = 63)

/-- The inputs are never idle; an output is idle, and not written back, exactly away from the last point. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem idleAt1_3 : ∀ t : Fin cfg1.N, ¬cond1_1 (grid1.coords t) → cfg1.idle 3 (grid1.coords t) = true := by decide +kernel
theorem noFlush1_2 : ∀ t : Fin cfg1.N, ¬cond1_1 (grid1.coords t) → (cfg1.win 2).flush t = false := by decide +kernel
theorem noFlush1_3 : ∀ t : Fin cfg1.N, ¬cond1_1 (grid1.coords t) → (cfg1.win 3).flush t = false := by decide +kernel
theorem liveAt1_2 : ∀ t : Fin cfg1.N, cond1_1 (grid1.coords t) → cfg1.idle 2 (grid1.coords t) = false := by decide +kernel
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
/-- The three scratch operands, and the other region's two staging buffers, which this region leaves alone. -/
abbrev sc0 : Memref sig .tc .vmem S1x1 .f32 := Memref.whole cc1_scratch0
abbrev sc1 : Memref sig .tc .vmem S1x1 .f32 := Memref.whole cc1_scratch1
abbrev sc2 : Memref sig .tc .vmem S1x1 .f32 := Memref.whole cc1_scratch2
abbrev og0 : Memref sig .tc .vmem S512x128 .f32 := Memref.whole cc0_stg0_0
abbrev og1 : Memref sig .tc .vmem S512x512 .f32 := Memref.whole cc0_stg1_0

/-- The region's scoped rest with the scratch operands as memrefs owned at some contents. -/
theorem PhiA1_eq (c : Dev nD) :
    (Pipeline.ΦA spec1 c : sProp 𝕄)
      = iprop(iprop((∃ d, owns (c : Thread nD τ) og0 fullShare d) ∗ (∃ d, owns (c : Thread nD τ) og1 fullShare d)
          ∗ (∃ d, owns (c : Thread nD τ) sc0 fullShare d) ∗ (∃ d, owns (c : Thread nD τ) sc1 fullShare d) ∗ (∃ d, owns (c : Thread nD τ) sc2 fullShare d))
          ∗ (∃ r, prngReg c r)) := by
  unfold Pipeline.ΦA; rw [scopedRest1_eq]; simp only [og0, og1, sc0, sc1, sc2, owns_whole]; try rfl

/-! ## The running sums, point by point -/

/-- The running sums after the body at position `n`, over the staged arrays. -/
def accV (c : Dev nD) (n : ℕ) : Acc F := accAt (pdArr V c) (labArr V c) n

theorem accV_zero (c : Dev nD) (t : Fin cfg1.N) (h : t.val = 0) :
    accV V c t.val = step (grid1.coords t) (pdArr V c) (labArr V c) acc0 := by
  obtain ⟨n, hn⟩ := t
  cases n with
  | zero => show step (grid1.coords (pt 0)) _ _ acc0 = _; rw [show pt 0 = (⟨0, hn⟩ : Fin cfg1.N) from pt_val ⟨0, hn⟩]
  | succ n => exact absurd h (Nat.succ_ne_zero n)

theorem accV_pos (c : Dev nD) (t : Fin cfg1.N) (h : t.val ≠ 0) :
    accV V c t.val = step (grid1.coords t) (pdArr V c) (labArr V c) (accV V c (t.val - 1)) := by
  obtain ⟨n, hn⟩ := t
  cases n with
  | zero => exact absurd rfl h
  | succ n =>
    show step (grid1.coords (pt (n + 1))) _ _ (accAt _ _ n) = _
    rw [show pt (n + 1) = (⟨n + 1, hn⟩ : Fin cfg1.N) from pt_val ⟨n + 1, hn⟩]; rfl

/-- The region's invariant before position `n`: before the first point the scoped rest at anything and the generator
    register; afterwards the three scratch buffers at the running sums the point before left, the other region's staging
    buffers at anything, the generator register at some state. -/
def PhiS1 (c : Dev nD) : (n : ℕ) → n ≤ cfg1.N → sProp 𝕄
  | 0, _ => Pipeline.ΦA spec1 c
  | n + 1, _ => iprop(iprop((∃ d, owns (c : Thread nD τ) og0 fullShare d) ∗ (∃ d, owns (c : Thread nD τ) og1 fullShare d)
      ∗ owns (c : Thread nD τ) sc0 fullShare (accV V c n).1 ∗ owns (c : Thread nD τ) sc1 fullShare (accV V c n).2.1
      ∗ owns (c : Thread nD τ) sc2 fullShare (accV V c n).2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ d, owns (c : Thread nD τ) og0 fullShare d) ∗ (∃ d, owns (c : Thread nD τ) og1 fullShare d)
      ∗ owns (c : Thread nD τ) sc0 fullShare (accV V c n).1 ∗ owns (c : Thread nD τ) sc1 fullShare (accV V c n).2.1
      ∗ owns (c : Thread nD τ) sc2 fullShare (accV V c n).2.2) ∗ (∃ r, prngReg c r)) := rfl

theorem PhiS1_pos (c : Dev nD) (n : ℕ) (h : n ≤ cfg1.N) (hz : n ≠ 0) :
    PhiS1 V c n h = iprop(iprop((∃ d, owns (c : Thread nD τ) og0 fullShare d) ∗ (∃ d, owns (c : Thread nD τ) og1 fullShare d)
      ∗ owns (c : Thread nD τ) sc0 fullShare (accV V c (n - 1)).1 ∗ owns (c : Thread nD τ) sc1 fullShare (accV V c (n - 1)).2.1
      ∗ owns (c : Thread nD τ) sc2 fullShare (accV V c (n - 1)).2.2) ∗ (∃ r, prngReg c r)) := by
  cases n with
  | zero => exact absurd rfl hz
  | succ n => rfl

/-! ## The pipeline's proof data -/

/-- The proof data of the region on core `c`: the arrays as the region finds them; after the body at point `t` each
    input's buffer at its block and the two outputs' at the quotients of the running sums after `t` (consulted at the last
    point only: elsewhere the outputs are idle); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => lossOf (accV V c t.val)
    | ⟨3, _⟩ => fracOf (accV V c t.val)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = lossOf (accV V c t.val) := by dsimp only [dat1]
theorem after1_3 (c : Dev nD) (t : Fin cfg1.N) : (dat1 V c).after 3 t = fracOf (accV V c t.val) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold the two arrays; the point's position says which case it is in; the
    invariant hands the body the scratch at the sums the point before left (at anything at the first point) and takes it
    back at this point's; an output idle at the point is handed back as found, at the last point it holds the quotient. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [iblk1_0_eq V c t, iblk1_1_eq V c t]
  have hN : t.val < 64 := lt_of_lt_of_eq t.isLt N_1
  by_cases h1 : t.val = 63
  · -- the last point
    have h0 : ¬t.val = 0 := by omega
    have hc0 : ¬cond1_0 (grid1.coords t) := fun h => h0 ((hcond1_0 t).mp h)
    have hc1 : cond1_1 (grid1.coords t) := (hcond1_1 t).mpr h1
    rw [show (dat1 V c).leavesExact 2 t = owns (c : Thread nD τ) (ms1_2 t) fullShare ((dat1 V c).after 2 t) from by
      unfold Dat.leavesExact; rw [liveAt1_2 t hc1], after1_2]
    rw [show (dat1 V c).leavesExact 3 t = owns (c : Thread nD τ) (ms1_3 t) fullShare ((dat1 V c).after 3 t) from by
      unfold Dat.leavesExact; rw [liveAt1_3 t hc1], after1_3]
    rw [accV_pos V c t h0, PhiS1_castSucc V c t, PhiS1_pos V c _ _ h0]
    iintro ⟨⟨⟨Hg0, Hg1, HS0, HS1, HS2⟩, Hg⟩, Ho, ⟨%d0, H0⟩, ⟨%d1, H1⟩, ⟨%d2, H2⟩, ⟨%d3, H3⟩⟩
    iapply (run1_C c Set.univ (grid1.coords t) (ms1_0 t) (hs1_0 t) (ms1_1 t) (hs1_1 t) (ms1_2 t) (hs1_2 t) (ms1_3 t) (hs1_3 t)
      sc0 (Memref.isWhole_whole _) sc1 (Memref.isWhole_whole _) sc2 (Memref.isWhole_whole _) hc0 hc1 (pdArr V c) (labArr V c) (accV V c (t.val - 1)) _)
    isplitl [H0]; · iexact H0
    isplitl [H1]; · iexact H1
    isplitl [H2]; · iexists _; iexact H2
    isplitl [H3]; · iexists _; iexact H3
    isplitl [HS0]; · iexact HS0
    isplitl [HS1]; · iexact HS1
    isplitl [HS2]; · iexact HS2
    iintro ⟨H0, H1, H2, H3, HS0, HS1, HS2⟩
    isplitl [Hg0 Hg1 HS0 HS1 HS2 Hg]
    · isplitl [Hg0 Hg1 HS0 HS1 HS2]
      · isplitl [Hg0]; · iexact Hg0
        isplitl [Hg1]; · iexact Hg1
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    iexact H3
  · have hc1 : ¬cond1_1 (grid1.coords t) := fun h => h1 ((hcond1_1 t).mp h)
    rw [Dat.leavesExact_idle (dat1 V c) 2 t (idleAt1_2 t hc1) (noFlush1_2 t hc1)]
    rw [Dat.leavesExact_idle (dat1 V c) 3 t (idleAt1_3 t hc1) (noFlush1_3 t hc1)]
    by_cases h0 : t.val = 0
    · -- the first point
      have hc0 : cond1_0 (grid1.coords t) := (hcond1_0 t).mpr h0
      rw [accV_zero V c t h0, PhiS1_castSucc V c t, PhiS1_zero V c _ _ h0, PhiA1_eq]
      iintro ⟨⟨⟨Hg0, Hg1, HS0, HS1, HS2⟩, Hg⟩, Ho, ⟨%d0, H0⟩, ⟨%d1, H1⟩, ⟨%d2, H2⟩, ⟨%d3, H3⟩⟩
      iapply (run1_A c Set.univ (grid1.coords t) (ms1_0 t) (hs1_0 t) (ms1_1 t) (hs1_1 t) (ms1_2 t) (hs1_2 t) (ms1_3 t) (hs1_3 t)
        sc0 (Memref.isWhole_whole _) sc1 (Memref.isWhole_whole _) sc2 (Memref.isWhole_whole _) hc0 hc1 (pdArr V c) (labArr V c) _ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [Hg0 Hg1 HS0 HS1 HS2 Hg]
      · isplitl [Hg0 Hg1 HS0 HS1 HS2]
        · isplitl [Hg0]; · iexact Hg0
          isplitl [Hg1]; · iexact Hg1
          isplitl [HS0]; · iexact HS0
          isplitl [HS1]; · iexact HS1
          iexact HS2
        iexact Hg
      isplitl [Ho]; · iexact Ho
      isplitl [H0]; · iexact H0
      isplitl [H1]; · iexact H1
      isplitl [H2]; · iexists _; iexact H2
      iexists _; iexact H3
    · -- a middle point
      have hc0 : ¬cond1_0 (grid1.coords t) := fun h => h0 ((hcond1_0 t).mp h)
      rw [accV_pos V c t h0, PhiS1_castSucc V c t, PhiS1_pos V c _ _ h0]
      iintro ⟨⟨⟨Hg0, Hg1, HS0, HS1, HS2⟩, Hg⟩, Ho, ⟨%d0, H0⟩, ⟨%d1, H1⟩, ⟨%d2, H2⟩, ⟨%d3, H3⟩⟩
      iapply (run1_B c Set.univ (grid1.coords t) (ms1_0 t) (hs1_0 t) (ms1_1 t) (hs1_1 t) (ms1_2 t) (hs1_2 t) (ms1_3 t) (hs1_3 t)
        sc0 (Memref.isWhole_whole _) sc1 (Memref.isWhole_whole _) sc2 (Memref.isWhole_whole _) hc0 hc1 (pdArr V c) (labArr V c) _ _ (accV V c (t.val - 1)) _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [Hg0 Hg1 HS0 HS1 HS2 Hg]
      · isplitl [Hg0 Hg1 HS0 HS1 HS2]
        · isplitl [Hg0]; · iexact Hg0
          isplitl [Hg1]; · iexact Hg1
          isplitl [HS0]; · iexact HS0
          isplitl [HS1]; · iexact HS1
          iexact HS2
        iexact Hg
      isplitl [Ho]; · iexact Ho
      isplitl [H0]; · iexact H0
      isplitl [H1]; · iexact H1
      isplitl [H2]; · iexists _; iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped rest back: the running sums' named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨Hg0, Hg1, HS0, HS1, HS2⟩, Hg⟩
  isplitl [Hg0 Hg1 HS0 HS1 HS2]
  · isplitl [Hg0]; · iexact Hg0
    isplitl [Hg1]; · iexact Hg1
    isplitl [HS0]; · iexists _; iexact HS0
    isplitl [HS1]; · iexists _; iexact HS1
    iexists _; iexact HS2
  iexact Hg

end Cert.Kernel.Hand

end
-- ==== Proof.Bits.Run.lean ====
/-
  The whole program as three segments — the distance region, the triplet region, the two reshapes of the host — from the
  launch to the return, at any float instance: the buffers' contents at each boundary (a region's arrays at what its
  write-backs leave, every other buffer as it was), each region as a segment over the thread state "every unscoped
  buffer at the boundary's contents, the generator register at some state, nothing owed", and the run: every weakly
  fair execution terminates, and at the end every unscoped buffer holds the last boundary's contents.
-/
import proofs.«423472_j36249523978553_4_alg».proof.Proof.Gen.Kernel.Launch
import proofs.«423472_j36249523978553_4_alg».proof.Proof.Gen.Kernel.Skeleton
import proofs.«423472_j36249523978553_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«423472_j36249523978553_4_alg».proof.Proof.Bits.KFun
import proofs.«423472_j36249523978553_4_alg».proof.Proof.Gen.Kernel.Regions
import proofs.«423472_j36249523978553_4_alg».proof.Proof.Bits.Region0
import proofs.«423472_j36249523978553_4_alg».proof.Proof.Bits.Region1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch: the distance region's entry. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the distance region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At the triplet region's exit. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the host's two reshapes: the return. -/
abbrev W3 : Dev nD → Valuation τ sig (Elt F) := fun c => StableHlo.after hostOps2 (W2 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

-- `iapply` of a library lemma stated over `pin pcs a p` unifies with the pinned configuration only when unification may
-- unfold plain definitions in a metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V1 m ρ) c)
    unfold Pipeline.ΦA
    iintro ⟨Hp, -, Hr⟩
    isplitl [Hr]; · iexact Hr
    iexact Hp
  hout c := by
    rw [Pipeline.ownSems0_none]
    refine BIBase.Entails.trans (hout1 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)) ]
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and in every final state every unscoped buffer holds the last boundary's
    contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Hand

end
-- ==== Proof.Bits.Frames.lean ====
/-
  The frame claim from the run: the two argument arrays end as launched — no host operation writes one, and each region
  that stages one through an input window leaves it as it found it.
-/
import proofs.«423472_j36249523978553_4_alg».proof.Proof.Gen.Kernel.Launch
import proofs.«423472_j36249523978553_4_alg».proof.Proof.Gen.Kernel.Skeleton
import proofs.«423472_j36249523978553_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«423472_j36249523978553_4_alg».proof.Proof.Bits.KFun
import proofs.«423472_j36249523978553_4_alg».proof.Proof.Bits.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The labels reach the end as launched: the reshapes do not write them, the triplet region reads them through an input
    window, the distance region bypasses them. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_writes_sub hostOps2 _ hostOps2_writes (by decide : main_arg0 ∉ hostOps2_W)
    _ = W1 m ρ c (Proc.devRef .tc main_arg0) := (W2_arr m ρ c 1).trans (((dat1 (V1 m ρ) c).arrAt_in 1 rfl _).trans (A_eq1 (V1 m ρ) c 1))
    _ = W0 m ρ c (Proc.devRef .tc main_arg0) := W1_of_ne m ρ c main_arg0 (by decide)
    _ = m ((c : Thread nD τ).loc main_arg0) := rfl

/-- The embeddings reach the end as launched: the reshapes do not write them, the triplet region bypasses them, the
    distance region reads them through an input window. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_writes_sub hostOps2 _ hostOps2_writes (by decide : main_arg1 ∉ hostOps2_W)
    _ = W1 m ρ c (Proc.devRef .tc main_arg1) := W2_of_ne m ρ c main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

/-- THE FRAME, at any float instance: every weakly fair execution terminates, nothing faulting, and the argument arrays
    end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m ρ c),
     (h c _ (mem_uc main_arg1 (by decide))).trans (W3_main_arg1 m ρ c)⟩) (run_all m ρ)

end Cert.Kernel.Hand

end
-- ==== Proof.KFun.lean ====
/-
  The triplet kernel's arithmetic as plain functions of the two staged arrays (the distance table and the labels), at
  any float instance: what a grid point loads, the three 128³ tiles it computes (mask, loss, indicator), one step of the
  three running sums, and the sums after the first `n + 1` points; and the two quotients the last point stores.
-/
import proofs.«423472_j36249523978553_4_alg».proof.Proof.Gen.KernelIdeal.Skeleton
import proofs.«423472_j36249523978553_4_alg».proof.Proof.Gen.KernelIdeal.Launch
import Idealize.ShloMosaic.Lib.Pipeline.FrameBody

noncomputable section

namespace Cert.KernelIdeal.Hand

open Idealize.ShloMosaic Idealize.SL.Sem Cert.KernelIdeal Cert.KernelIdeal.Gen

variable {F : FTy → Type} [FloatOps F]

/-- The rectangles the body loads through: the anchor × positive and anchor × negative 128 × 128 blocks of the distance
    table, and the anchor, positive and negative 128-blocks of the labels, at grid point `i`. -/
abbrev rAP (i : grid1.Coords) : Rect S512x512 := Rect.unit (s := S512x512) (k1_off1 i) S128x128.size (k1_off1_inb i)
abbrev rAN (i : grid1.Coords) : Rect S512x512 := Rect.unit (s := S512x512) (k1_off2 i) S128x128.size (k1_off2_inb i)
abbrev rA (i : grid1.Coords) : Rect S512 := Rect.unit (s := S512) (k1_off3 i) S128.size (k1_off3_inb i)
abbrev rP (i : grid1.Coords) : Rect S512 := Rect.unit (s := S512) (k1_off4 i) S128.size (k1_off4_inb i)
abbrev rN (i : grid1.Coords) : Rect S512 := Rect.unit (s := S512) (k1_off5 i) S128.size (k1_off5_inb i)

/-- The mask tile of grid point `i`. -/
def tileMsk (i : grid1.Coords) (lab : Vec F S512 .i32) : FVec F S128x128x128 .f32 :=
  k1_pay13 (View.ld lab (rA i)) (View.ld lab (rP i)) (View.ld lab (rN i)) (k1_pay8 i) (k1_pay9 i) (k1_pay10 i) (k1_pay11 i) (k1_pay12 i)

/-- The loss tile of grid point `i`. -/
def tileTl (i : grid1.Coords) (pd : Vec F S512x512 .f32) (lab : Vec F S512 .i32) : FVec F S128x128x128 .f32 :=
  k1_pay14 (k1_pay6 (View.ld pd (rAP i))) (k1_pay7 (View.ld pd (rAN i))) (View.ld lab (rA i)) (View.ld lab (rP i)) (View.ld lab (rN i))
    (k1_pay8 i) (k1_pay9 i) (k1_pay10 i) (k1_pay11 i) (k1_pay12 i)

/-- The indicator tile of grid point `i`. -/
def tileVld (i : grid1.Coords) (pd : Vec F S512x512 .f32) (lab : Vec F S512 .i32) : FVec F S128x128x128 .f32 :=
  k1_pay15 (k1_pay6 (View.ld pd (rAP i))) (k1_pay7 (View.ld pd (rAN i))) (View.ld lab (rA i)) (View.ld lab (rP i)) (View.ld lab (rN i))
    (k1_pay8 i) (k1_pay9 i) (k1_pay10 i) (k1_pay11 i) (k1_pay12 i)

/-- The three running sums: loss, indicator, mask. -/
abbrev Acc (F : FTy → Type) [FloatOps F] : Type := Vec F S1x1 .f32 × Vec F S1x1 .f32 × Vec F S1x1 .f32

/-- What the first point resets them to. -/
def acc0 : Acc F := (k1_pay3, k1_pay4, k1_pay5)

/-- One point's update of the running sums. -/
def step (i : grid1.Coords) (pd : Vec F S512x512 .f32) (lab : Vec F S512 .i32) (a : Acc F) : Acc F :=
  (k1_pay16 (tileTl i pd lab) a.1, k1_pay17 (tileVld i pd lab) a.2.1, k1_pay18 (tileMsk i lab) a.2.2)

/-- Position `n` of the grid as a point (positions past the grid wrap; they are never consulted). -/
def pt (n : ℕ) : Fin cfg1.N := ⟨n % 64, lt_of_lt_of_eq (Nat.mod_lt _ (by decide)) N_1.symm⟩

theorem pt_val (t : Fin cfg1.N) : pt t.val = t :=
  Fin.ext (Nat.mod_eq_of_lt (lt_of_lt_of_eq t.isLt N_1))

/-- The running sums after the body at position `n`: reset at the first point, then one step per point. -/
def accAt (pd : Vec F S512x512 .f32) (lab : Vec F S512 .i32) : ℕ → Acc F
  | 0 => step (grid1.coords (pt 0)) pd lab acc0
  | n + 1 => step (grid1.coords (pt (n + 1))) pd lab (accAt pd lab n)

/-- The two quotients the last point stores. -/
def lossOf (a : Acc F) : Vec F S1x1 .f32 := k1_pay1 a.1 a.2.1
def fracOf (a : Acc F) : Vec F S1x1 .f32 := k1_pay2 a.2.1 a.2.2

end Cert.KernelIdeal.Hand

end
-- ==== Proof.Region0.lean ====
/-
  The distance kernel's region (one grid point; the embeddings block in, the distance table out), at any float
  instance and at any contents `V` of the TensorCore's buffers when the region is entered: what the body leaves in the
  output's staging buffer, the body's triple, the pipeline's proof data and the body obligation.
-/
import proofs.«423472_j36249523978553_4_alg».proof.Proof.Gen.KernelIdeal.Launch
import proofs.«423472_j36249523978553_4_alg».proof.Proof.Gen.KernelIdeal.Skeleton
import proofs.«423472_j36249523978553_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds its block at the point, for any proof data over `V` whose body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles of the two staging buffers. -/
abbrev rIn0 : Rect S512x128 := Rect.unit (s := S512x128) ![0, 0] S512x128.size inb_S512x128_S512x128_0_0
abbrev rOut0 : Rect S512x512 := Rect.unit (s := S512x512) ![0, 0] S512x512.size inb_S512x512_S512x512_0_0

/-- What the body leaves in the output's staging buffer: its one store, of the distance payload of the loaded block. -/
def out0_1 (x0 : Vec F S512x128 .f32) : Vec F S512x512 .f32 :=
  View.canon [⟨rOut0, k0_pay1 (View.ld x0 rIn0)⟩]

/-- The store covers the buffer. -/
theorem cover0_1 (p0 : Vec F S512x512 .f32) (y : S512x512.Idx) :
    ∃ pc ∈ ([⟨rOut0, p0⟩] : List (View.Piece (Elt F) S512x512 .f32)), y ∈ pc.1.set :=
  View.cover_of_tiled [⟨rOut0, p0⟩] S512x512.size (by rfl) y

set_option maxHeartbeats 1000000 in
/-- The body on whole staging memrefs, the input's at `x0` and the output's at anything, runs to the continuation
    holding the input's as it was and the output's at `out0_1 x0`. -/
theorem sound_kernel0 (c : Dev nD) (E : Set ℕ) (i : grid0.Coords) (arg1 : Memref sig .tc .vmem S512x128 .f32) (harg1 : arg1.IsWhole) (arg2 : Memref sig .tc .vmem S512x512 .f32) (harg2 : arg2.IsWhole)
    (x0 : Vec F S512x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__pdist_kernel i arg1 harg1 arg2 harg2) K := by
  simp only [cc0__pdist_kernel_eq_skeleton]; unfold cc0__pdist_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the region on core `c`: the arrays as the region finds them; after the body the input's buffer at
    its block and the output's at `out0_1` of it; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Body1.lean ====
/-
  The triplet kernel's body on whole staging and scratch memrefs, at any float instance, in its three cases: the grid's
  first point (the running sums reset, then updated), a middle point (updated), the last point (updated, then the two
  quotients stored). In each the two staged arrays are read and left as they were and the three running sums end at one
  `step` of the point's tiles.
-/
import proofs.«423472_j36249523978553_4_alg».proof.Proof.Gen.KernelIdeal.Launch
import proofs.«423472_j36249523978553_4_alg».proof.Proof.Gen.KernelIdeal.Skeleton
import proofs.«423472_j36249523978553_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«423472_j36249523978553_4_alg».proof.Proof.KFun

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The condition of the body's first `scf.if` (the reset at the grid's first point), from the grid coordinates. -/
abbrev cond1_0 (i : grid1.Coords) : Prop :=
  Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32 = 1#1
/-- The condition of its second `scf.if` (the two quotients stored at the grid's last point). -/
abbrev cond1_1 (i : grid1.Coords) : Prop := k1_cond2 i = 1#1

/-- The one rectangle of a 1 × 1 buffer, and that its offsets are zero. -/
abbrev rS : Rect S1x1 := Rect.unit (s := S1x1) ![0, 0] S1x1.size inb_S1x1_S1x1_0_0
theorem hz2 : (![0, 0] : Fin 2 → ℕ) = fun _ => 0 := by
  funext a; match a with | ⟨0, _⟩ => rfl | ⟨1, _⟩ => rfl

/-- A list of stores through it, the last one first, covers the buffer. -/
theorem coverS (p : Vec F S1x1 .f32) (L : List (View.Piece (Elt F) S1x1 .f32)) (y : S1x1.Idx) :
    ∃ pc ∈ ((⟨rS, p⟩ : View.Piece (Elt F) S1x1 .f32) :: L), y ∈ pc.1.set :=
  ⟨⟨rS, p⟩, List.mem_cons_self, by
    obtain ⟨pc, hpc, hy⟩ := View.cover_of_tiled [(⟨rS, p⟩ : View.Piece (Elt F) S1x1 .f32)] S1x1.size (by rfl) y
    simp only [List.mem_singleton] at hpc; subst hpc; exact hy⟩

set_option maxHeartbeats 4000000 in
/-- A middle point: neither conditional taken; the outputs' buffers untouched. -/
theorem run1_B (c : Dev nD) (E : Set ℕ) (i : grid1.Coords)
    (arg3 : Memref sig .tc .vmem S512x512 .f32) (harg3 : arg3.IsWhole) (arg4 : Memref sig .tc .vmem S512 .i32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (arg9 : Memref sig .tc .vmem S1x1 .f32) (harg9 : arg9.IsWhole)
    (hc0 : ¬cond1_0 i) (hc1 : ¬cond1_1 i)
    (x0 : Vec F S512x512 .f32) (x1 : Vec F S512 .i32) (xo2 xo3 : Vec F S1x1 .f32) (s : Acc F) (K : PUnit → sProp 𝕄) :
    iprop(owns (c : Thread nD τ) arg3 fullShare x0 ∗ owns (c : Thread nD τ) arg4 fullShare x1
        ∗ owns (c : Thread nD τ) arg5 fullShare xo2 ∗ owns (c : Thread nD τ) arg6 fullShare xo3
        ∗ owns (c : Thread nD τ) arg7 fullShare s.1 ∗ owns (c : Thread nD τ) arg8 fullShare s.2.1 ∗ owns (c : Thread nD τ) arg9 fullShare s.2.2
        ∗ (iprop(owns (c : Thread nD τ) arg3 fullShare x0 ∗ owns (c : Thread nD τ) arg4 fullShare x1
            ∗ owns (c : Thread nD τ) arg5 fullShare xo2 ∗ owns (c : Thread nD τ) arg6 fullShare xo3
            ∗ owns (c : Thread nD τ) arg7 fullShare (step i x0 x1 s).1 ∗ owns (c : Thread nD τ) arg8 fullShare (step i x0 x1 s).2.1
            ∗ owns (c : Thread nD τ) arg9 fullShare (step i x0 x1 s).2.2) -∗ K ⟨⟩))
      ⊢ wp frame (wpE (defs₀ (F := F)) Variants.none c none) E (cc1__triplet_kernel i arg3 harg3 arg4 harg4 arg5 harg5 arg6 harg6 arg7 harg7 arg8 harg8 arg9 harg9) K := by
  simp only [cc1__triplet_kernel_eq_skeleton]; unfold cc1__triplet_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (coverS _ _)]
    rw [View.canon_cons_unit_zero hz2]
    simp only [View.readAt_eq_ld, harg3.read_unread, harg4.read_unread, harg5.read_unread, harg6.read_unread, harg7.read_unread, harg8.read_unread, harg9.read_unread,
      View.ld_unit_zero (S := S1x1) hz2, View.readCov_unit_zero (S := S1x1) _ hz2, View.canon_cons_unit_zero (S := S1x1) hz2]
    rfl
  isplitl [H8]
  · iexists _; isplitr
    swap; · iexact H8
    ipureintro
    sl_unfold_words
    rw [View.read_writes_eq_canon _ _ _ (coverS _ _)]
    rw [View.canon_cons_unit_zero hz2]
    simp only [View.readAt_eq_ld, harg3.read_unread, harg4.read_unread, harg5.read_unread, harg6.read_unread, harg7.read_unread, harg8.read_unread, harg9.read_unread,
      View.ld_unit_zero (S := S1x1) hz2, View.readCov_unit_zero (S := S1x1) _ hz2, View.canon_cons_unit_zero (S := S1x1) hz2]
    rfl
  iexists _; isplitr
  swap; · iexact H9
  ipureintro
  sl_unfold_words
  rw [View.read_writes_eq_canon _ _ _ (coverS _ _)]
  rw [View.canon_cons_unit_zero hz2]
  simp only [View.readAt_eq_ld, harg3.read_unread, harg4.read_unread, harg5.read_unread, harg6.read_unread, harg7.read_unread, harg8.read_unread, harg9.read_unread,
    View.ld_unit_zero (S := S1x1) hz2, View.readCov_unit_zero (S := S1x1) _ hz2, View.canon_cons_unit_zero (S := S1x1) hz2]
  rfl

set_option maxHeartbeats 4000000 in
/-- The first point: the running sums, found at anything, are reset and then updated; the outputs' buffers untouched. -/
theorem run1_A (c : Dev nD) (E : Set ℕ) (i : grid1.Coords)
    (arg3 : Memref sig .tc .vmem S512x512 .f32) (harg3 : arg3.IsWhole) (arg4 : Memref sig .tc .vmem S512 .i32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (arg9 : Memref sig .tc .vmem S1x1 .f32) (harg9 : arg9.IsWhole)
    (hc0 : cond1_0 i) (hc1 : ¬cond1_1 i)
    (x0 : Vec F S512x512 .f32) (x1 : Vec F S512 .i32) (xo2 xo3 : Vec F S1x1 .f32) (K : PUnit → sProp 𝕄) :
    iprop(owns (c : Thread nD τ) arg3 fullShare x0 ∗ owns (c : Thread nD τ) arg4 fullShare x1
        ∗ owns (c : Thread nD τ) arg5 fullShare xo2 ∗ owns (c : Thread nD τ) arg6 fullShare xo3
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1
            ∗ owns (c : Thread nD τ) arg5 fullShare xo2 ∗ owns (c : Thread nD τ) arg6 fullShare xo3
            ∗ owns (c : Thread nD τ) arg7 fullShare (step i x0 x1 acc0).1 ∗ owns (c : Thread nD τ) arg8 fullShare (step i x0 x1 acc0).2.1
            ∗ owns (c : Thread nD τ) arg9 fullShare (step i x0 x1 acc0).2.2) -∗ K ⟨⟩))
      ⊢ wp frame (wpE (defs₀ (F := F)) Variants.none c none) E (cc1__triplet_kernel i arg3 harg3 arg4 harg4 arg5 harg5 arg6 harg6 arg7 harg7 arg8 harg8 arg9 harg9) K := by
  simp only [cc1__triplet_kernel_eq_skeleton]; unfold cc1__triplet_kernel_skel
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := harg3.eq_unread hf3; obtain rfl := harg4.eq_unread hf4; obtain rfl := harg5.eq_unread hf5; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (coverS _ _)]
    rw [View.canon_cons_unit_zero hz2]
    simp only [View.readAt_eq_ld, harg3.read_unread, harg4.read_unread, harg5.read_unread, harg6.read_unread, harg7.read_unread, harg8.read_unread, harg9.read_unread,
      View.ld_unit_zero (S := S1x1) hz2, View.readCov_unit_zero (S := S1x1) _ hz2, View.canon_cons_unit_zero (S := S1x1) hz2]
    rfl
  isplitl [H8]
  · iexists _; isplitr
    swap; · iexact H8
    ipureintro
    sl_unfold_words
    rw [View.read_writes_eq_canon _ _ _ (coverS _ _)]
    rw [View.canon_cons_unit_zero hz2]
    simp only [View.readAt_eq_ld, harg3.read_unread, harg4.read_unread, harg5.read_unread, harg6.read_unread, harg7.read_unread, harg8.read_unread, harg9.read_unread,
      View.ld_unit_zero (S := S1x1) hz2, View.readCov_unit_zero (S := S1x1) _ hz2, View.canon_cons_unit_zero (S := S1x1) hz2]
    rfl
  iexists _; isplitr
  swap; · iexact H9
  ipureintro
  sl_unfold_words
  rw [View.read_writes_eq_canon _ _ _ (coverS _ _)]
  rw [View.canon_cons_unit_zero hz2]
  simp only [View.readAt_eq_ld, harg3.read_unread, harg4.read_unread, harg5.read_unread, harg6.read_unread, harg7.read_unread, harg8.read_unread, harg9.read_unread,
    View.ld_unit_zero (S := S1x1) hz2, View.readCov_unit_zero (S := S1x1) _ hz2, View.canon_cons_unit_zero (S := S1x1) hz2]
  rfl

set_option maxHeartbeats 4000000 in
/-- The last point: the running sums updated, then the two quotients stored into the outputs' buffers (found at anything). -/
theorem run1_C (c : Dev nD) (E : Set ℕ) (i : grid1.Coords)
    (arg3 : Memref sig .tc .vmem S512x512 .f32) (harg3 : arg3.IsWhole) (arg4 : Memref sig .tc .vmem S512 .i32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (arg9 : Memref sig .tc .vmem S1x1 .f32) (harg9 : arg9.IsWhole)
    (hc0 : ¬cond1_0 i) (hc1 : cond1_1 i)
    (x0 : Vec F S512x512 .f32) (x1 : Vec F S512 .i32) (s : Acc F) (K : PUnit → sProp 𝕄) :
    iprop(owns (c : Thread nD τ) arg3 fullShare x0 ∗ owns (c : Thread nD τ) arg4 fullShare x1
        ∗ (∃ d, owns (c : Thread nD τ) arg5 fullShare d) ∗ (∃ d, owns (c : Thread nD τ) arg6 fullShare d)
        ∗ owns (c : Thread nD τ) arg7 fullShare s.1 ∗ owns (c : Thread nD τ) arg8 fullShare s.2.1 ∗ owns (c : Thread nD τ) arg9 fullShare s.2.2
        ∗ (iprop(owns (c : Thread nD τ) arg3 fullShare x0 ∗ owns (c : Thread nD τ) arg4 fullShare x1
            ∗ owns (c : Thread nD τ) arg5 fullShare (lossOf (step i x0 x1 s)) ∗ owns (c : Thread nD τ) arg6 fullShare (fracOf (step i x0 x1 s))
            ∗ owns (c : Thread nD τ) arg7 fullShare (step i x0 x1 s).1 ∗ owns (c : Thread nD τ) arg8 fullShare (step i x0 x1 s).2.1
            ∗ owns (c : Thread nD τ) arg9 fullShare (step i x0 x1 s).2.2) -∗ K ⟨⟩))
      ⊢ wp frame (wpE (defs₀ (F := F)) Variants.none c none) E (cc1__triplet_kernel i arg3 harg3 arg4 harg4 arg5 harg5 arg6 harg6 arg7 harg7 arg8 harg8 arg9 harg9) K := by
  simp only [cc1__triplet_kernel_eq_skeleton]; unfold cc1__triplet_kernel_skel
  unfold owns
  iintro ⟨⟨%f3, %hf3, H3⟩, ⟨%f4, %hf4, H4⟩, ⟨%d5, %f5, -, H5⟩, ⟨%d6, %f6, -, H6⟩, ⟨%f7, %hf7, H7⟩, ⟨%f8, %hf8, H8⟩, ⟨%f9, %hf9, H9⟩, Hk⟩
  obtain rfl := harg3.eq_unread hf3; obtain rfl := harg4.eq_unread hf4
  obtain rfl := harg7.eq_unread hf7; obtain rfl := harg8.eq_unread hf8; obtain rfl := harg9.eq_unread hf9
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_words
    rw [View.read_writes_eq_canon _ _ _ (coverS _ _)]
    rw [View.canon_cons_unit_zero hz2]
    simp only [View.readAt_eq_ld, harg3.read_unread, harg4.read_unread, harg5.read_unread, harg6.read_unread, harg7.read_unread, harg8.read_unread, harg9.read_unread,
      View.ld_unit_zero (S := S1x1) hz2, View.readCov_unit_zero (S := S1x1) _ hz2, View.canon_cons_unit_zero (S := S1x1) hz2]
    rfl
  isplitl [H6]
  · iexists _; isplitr
    swap; · iexact H6
    ipureintro
    sl_unfold_words
    rw [View.read_writes_eq_canon _ _ _ (coverS _ _)]
    rw [View.canon_cons_unit_zero hz2]
    simp only [View.readAt_eq_ld, harg3.read_unread, harg4.read_unread, harg5.read_unread, harg6.read_unread, harg7.read_unread, harg8.read_unread, harg9.read_unread,
      View.ld_unit_zero (S := S1x1) hz2, View.readCov_unit_zero (S := S1x1) _ hz2, View.canon_cons_unit_zero (S := S1x1) hz2]
    rfl
  isplitl [H7]
  · iexists _; isplitr
    swap; · iexact H7
    ipureintro
    sl_unfold_words
    rw [View.read_writes_eq_canon _ _ _ (coverS _ _)]
    rw [View.canon_cons_unit_zero hz2]
    simp only [View.readAt_eq_ld, harg3.read_unread, harg4.read_unread, harg5.read_unread, harg6.read_unread, harg7.read_unread, harg8.read_unread, harg9.read_unread,
      View.ld_unit_zero (S := S1x1) hz2, View.readCov_unit_zero (S := S1x1) _ hz2, View.canon_cons_unit_zero (S := S1x1) hz2]
    rfl
  isplitl [H8]
  · iexists _; isplitr
    swap; · iexact H8
    ipureintro
    sl_unfold_words
    rw [View.read_writes_eq_canon _ _ _ (coverS _ _)]
    rw [View.canon_cons_unit_zero hz2]
    simp only [View.readAt_eq_ld, harg3.read_unread, harg4.read_unread, harg5.read_unread, harg6.read_unread, harg7.read_unread, harg8.read_unread, harg9.read_unread,
      View.ld_unit_zero (S := S1x1) hz2, View.readCov_unit_zero (S := S1x1) _ hz2, View.canon_cons_unit_zero (S := S1x1) hz2]
    rfl
  iexists _; isplitr
  swap; · iexact H9
  ipureintro
  sl_unfold_words
  rw [View.read_writes_eq_canon _ _ _ (coverS _ _)]
  rw [View.canon_cons_unit_zero hz2]
  simp only [View.readAt_eq_ld, harg3.read_unread, harg4.read_unread, harg5.read_unread, harg6.read_unread, harg7.read_unread, harg8.read_unread, harg9.read_unread,
    View.ld_unit_zero (S := S1x1) hz2, View.readCov_unit_zero (S := S1x1) _ hz2, View.canon_cons_unit_zero (S := S1x1) hz2]
  rfl

end Cert.KernelIdeal.Hand

end
-- ==== Proof.Region1.lean ====
/-
  The triplet kernel's region (a 4 × 4 × 4 grid; the distance table and the labels staged whole once, the two 1 × 1
  results written back at the last point only, three 1 × 1 running sums carried in scratch from point to point), at any
  float instance and at any contents `V` of the TensorCore's buffers when the region is entered: which case each point is
  in, the running sums after each point, the region's invariant (the scratch at the sums the point before left), the
  pipeline's proof data and the body obligation.
-/
import proofs.«423472_j36249523978553_4_alg».proof.Proof.Gen.KernelIdeal.Launch
import proofs.«423472_j36249523978553_4_alg».proof.Proof.Gen.KernelIdeal.Skeleton
import proofs.«423472_j36249523978553_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«423472_j36249523978553_4_alg».proof.Proof.KFun
import proofs.«423472_j36249523978553_4_alg».proof.Proof.Body1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point, fetched there or not (the block index never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The two staged arrays: the distance table and the labels. -/
abbrev pdArr (c : Dev nD) : Vec F S512x512 .f32 := V c main_v0
abbrev labArr (c : Dev nD) : Vec F S512 .i32 := V c main_arg0

/-- Both input windows' block index is zero on every axis at every point: the block is the whole array. -/
theorem idx_facts1 : ∀ t : Fin cfg1.N, win1_0.index t (0 : Fin 2) = 0 ∧ win1_0.index t (1 : Fin 2) = 0 ∧ win1_1.index t (0 : Fin 1) = 0 :=
  (by decide +kernel : ∀ t : Fin grid1.N, _)

theorem iblk1_0_eq (c : Dev nD) (t : Fin cfg1.N) : iblk1 V c 0 t = pdArr V c := by
  obtain ⟨e0, e1, e2⟩ := idx_facts1 t
  funext y
  show V c main_v0 (((cfg1.win 0).blk t).view.emb y) = V c main_v0 y
  refine congrArg (V c main_v0) ?_
  funext a; apply Fin.ext
  match a with
  | ⟨0, _⟩ => show win1_0.index t (0 : Fin 2) * 512 + 1 * (y 0).val = (y 0).val; omega
  | ⟨1, _⟩ => show win1_0.index t (1 : Fin 2) * 512 + 1 * (y 1).val = (y 1).val; omega

theorem iblk1_1_eq (c : Dev nD) (t : Fin cfg1.N) : iblk1 V c 1 t = labArr V c := by
  obtain ⟨e0, e1, e2⟩ := idx_facts1 t
  funext y
  show V c main_arg0 (((cfg1.win 1).blk t).view.emb y) = V c main_arg0 y
  refine congrArg (V c main_arg0) ?_
  funext a; apply Fin.ext
  match a with
  | ⟨0, _⟩ => show win1_1.index t (0 : Fin 1) * 512 + 1 * (y 0).val = (y 0).val; omega

/-! ## The cases -/

/-- The reset is taken at the first point only, the quotients are stored at the last point only. -/
theorem hcond1_0 : ∀ t : Fin cfg1.N, cond1_0 (grid1.coords t) ↔ t.val = 0 :=
  (by decide +kernel : ∀ t : Fin grid1.N, cond1_0 (grid1.coords t) ↔ t.val = 0)
theorem hcond1_1 : ∀ t : Fin cfg1.N, cond1_1 (grid1.coords t) ↔ t.val = 63 :=
  (by decide +kernel : ∀ t : Fin grid1.N, cond1_1 (grid1.coords t) ↔ t.val = 63)

/-- The inputs are never idle; an output is idle, and not written back, exactly away from the last point. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem idleAt1_3 : ∀ t : Fin cfg1.N, ¬cond1_1 (grid1.coords t) → cfg1.idle 3 (grid1.coords t) = true := by decide +kernel
theorem noFlush1_2 : ∀ t : Fin cfg1.N, ¬cond1_1 (grid1.coords t) → (cfg1.win 2).flush t = false := by decide +kernel
theorem noFlush1_3 : ∀ t : Fin cfg1.N, ¬cond1_1 (grid1.coords t) → (cfg1.win 3).flush t = false := by decide +kernel
theorem liveAt1_2 : ∀ t : Fin cfg1.N, cond1_1 (grid1.coords t) → cfg1.idle 2 (grid1.coords t) = false := by decide +kernel
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
/-- The three scratch operands, and the other region's two staging buffers, which this region leaves alone. -/
abbrev sc0 : Memref sig .tc .vmem S1x1 .f32 := Memref.whole cc1_scratch0
abbrev sc1 : Memref sig .tc .vmem S1x1 .f32 := Memref.whole cc1_scratch1
abbrev sc2 : Memref sig .tc .vmem S1x1 .f32 := Memref.whole cc1_scratch2
abbrev og0 : Memref sig .tc .vmem S512x128 .f32 := Memref.whole cc0_stg0_0
abbrev og1 : Memref sig .tc .vmem S512x512 .f32 := Memref.whole cc0_stg1_0

/-- The region's scoped rest with the scratch operands as memrefs owned at some contents. -/
theorem PhiA1_eq (c : Dev nD) :
    (Pipeline.ΦA spec1 c : sProp 𝕄)
      = iprop(iprop((∃ d, owns (c : Thread nD τ) og0 fullShare d) ∗ (∃ d, owns (c : Thread nD τ) og1 fullShare d)
          ∗ (∃ d, owns (c : Thread nD τ) sc0 fullShare d) ∗ (∃ d, owns (c : Thread nD τ) sc1 fullShare d) ∗ (∃ d, owns (c : Thread nD τ) sc2 fullShare d))
          ∗ (∃ r, prngReg c r)) := by
  unfold Pipeline.ΦA; rw [scopedRest1_eq]; simp only [og0, og1, sc0, sc1, sc2, owns_whole]; try rfl

/-! ## The running sums, point by point -/

/-- The running sums after the body at position `n`, over the staged arrays. -/
def accV (c : Dev nD) (n : ℕ) : Acc F := accAt (pdArr V c) (labArr V c) n

theorem accV_zero (c : Dev nD) (t : Fin cfg1.N) (h : t.val = 0) :
    accV V c t.val = step (grid1.coords t) (pdArr V c) (labArr V c) acc0 := by
  obtain ⟨n, hn⟩ := t
  cases n with
  | zero => show step (grid1.coords (pt 0)) _ _ acc0 = _; rw [show pt 0 = (⟨0, hn⟩ : Fin cfg1.N) from pt_val ⟨0, hn⟩]
  | succ n => exact absurd h (Nat.succ_ne_zero n)

theorem accV_pos (c : Dev nD) (t : Fin cfg1.N) (h : t.val ≠ 0) :
    accV V c t.val = step (grid1.coords t) (pdArr V c) (labArr V c) (accV V c (t.val - 1)) := by
  obtain ⟨n, hn⟩ := t
  cases n with
  | zero => exact absurd rfl h
  | succ n =>
    show step (grid1.coords (pt (n + 1))) _ _ (accAt _ _ n) = _
    rw [show pt (n + 1) = (⟨n + 1, hn⟩ : Fin cfg1.N) from pt_val ⟨n + 1, hn⟩]; rfl

/-- The region's invariant before position `n`: before the first point the scoped rest at anything and the generator
    register; afterwards the three scratch buffers at the running sums the point before left, the other region's staging
    buffers at anything, the generator register at some state. -/
def PhiS1 (c : Dev nD) : (n : ℕ) → n ≤ cfg1.N → sProp 𝕄
  | 0, _ => Pipeline.ΦA spec1 c
  | n + 1, _ => iprop(iprop((∃ d, owns (c : Thread nD τ) og0 fullShare d) ∗ (∃ d, owns (c : Thread nD τ) og1 fullShare d)
      ∗ owns (c : Thread nD τ) sc0 fullShare (accV V c n).1 ∗ owns (c : Thread nD τ) sc1 fullShare (accV V c n).2.1
      ∗ owns (c : Thread nD τ) sc2 fullShare (accV V c n).2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ d, owns (c : Thread nD τ) og0 fullShare d) ∗ (∃ d, owns (c : Thread nD τ) og1 fullShare d)
      ∗ owns (c : Thread nD τ) sc0 fullShare (accV V c n).1 ∗ owns (c : Thread nD τ) sc1 fullShare (accV V c n).2.1
      ∗ owns (c : Thread nD τ) sc2 fullShare (accV V c n).2.2) ∗ (∃ r, prngReg c r)) := rfl

theorem PhiS1_pos (c : Dev nD) (n : ℕ) (h : n ≤ cfg1.N) (hz : n ≠ 0) :
    PhiS1 V c n h = iprop(iprop((∃ d, owns (c : Thread nD τ) og0 fullShare d) ∗ (∃ d, owns (c : Thread nD τ) og1 fullShare d)
      ∗ owns (c : Thread nD τ) sc0 fullShare (accV V c (n - 1)).1 ∗ owns (c : Thread nD τ) sc1 fullShare (accV V c (n - 1)).2.1
      ∗ owns (c : Thread nD τ) sc2 fullShare (accV V c (n - 1)).2.2) ∗ (∃ r, prngReg c r)) := by
  cases n with
  | zero => exact absurd rfl hz
  | succ n => rfl

/-! ## The pipeline's proof data -/

/-- The proof data of the region on core `c`: the arrays as the region finds them; after the body at point `t` each
    input's buffer at its block and the two outputs' at the quotients of the running sums after `t` (consulted at the last
    point only: elsewhere the outputs are idle); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => lossOf (accV V c t.val)
    | ⟨3, _⟩ => fracOf (accV V c t.val)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = lossOf (accV V c t.val) := by dsimp only [dat1]
theorem after1_3 (c : Dev nD) (t : Fin cfg1.N) : (dat1 V c).after 3 t = fracOf (accV V c t.val) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold the two arrays; the point's position says which case it is in; the
    invariant hands the body the scratch at the sums the point before left (at anything at the first point) and takes it
    back at this point's; an output idle at the point is handed back as found, at the last point it holds the quotient. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [iblk1_0_eq V c t, iblk1_1_eq V c t]
  have hN : t.val < 64 := lt_of_lt_of_eq t.isLt N_1
  by_cases h1 : t.val = 63
  · -- the last point
    have h0 : ¬t.val = 0 := by omega
    have hc0 : ¬cond1_0 (grid1.coords t) := fun h => h0 ((hcond1_0 t).mp h)
    have hc1 : cond1_1 (grid1.coords t) := (hcond1_1 t).mpr h1
    rw [show (dat1 V c).leavesExact 2 t = owns (c : Thread nD τ) (ms1_2 t) fullShare ((dat1 V c).after 2 t) from by
      unfold Dat.leavesExact; rw [liveAt1_2 t hc1], after1_2]
    rw [show (dat1 V c).leavesExact 3 t = owns (c : Thread nD τ) (ms1_3 t) fullShare ((dat1 V c).after 3 t) from by
      unfold Dat.leavesExact; rw [liveAt1_3 t hc1], after1_3]
    rw [accV_pos V c t h0, PhiS1_castSucc V c t, PhiS1_pos V c _ _ h0]
    iintro ⟨⟨⟨Hg0, Hg1, HS0, HS1, HS2⟩, Hg⟩, Ho, ⟨%d0, H0⟩, ⟨%d1, H1⟩, ⟨%d2, H2⟩, ⟨%d3, H3⟩⟩
    iapply (run1_C c Set.univ (grid1.coords t) (ms1_0 t) (hs1_0 t) (ms1_1 t) (hs1_1 t) (ms1_2 t) (hs1_2 t) (ms1_3 t) (hs1_3 t)
      sc0 (Memref.isWhole_whole _) sc1 (Memref.isWhole_whole _) sc2 (Memref.isWhole_whole _) hc0 hc1 (pdArr V c) (labArr V c) (accV V c (t.val - 1)) _)
    isplitl [H0]; · iexact H0
    isplitl [H1]; · iexact H1
    isplitl [H2]; · iexists _; iexact H2
    isplitl [H3]; · iexists _; iexact H3
    isplitl [HS0]; · iexact HS0
    isplitl [HS1]; · iexact HS1
    isplitl [HS2]; · iexact HS2
    iintro ⟨H0, H1, H2, H3, HS0, HS1, HS2⟩
    isplitl [Hg0 Hg1 HS0 HS1 HS2 Hg]
    · isplitl [Hg0 Hg1 HS0 HS1 HS2]
      · isplitl [Hg0]; · iexact Hg0
        isplitl [Hg1]; · iexact Hg1
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    iexact H3
  · have hc1 : ¬cond1_1 (grid1.coords t) := fun h => h1 ((hcond1_1 t).mp h)
    rw [Dat.leavesExact_idle (dat1 V c) 2 t (idleAt1_2 t hc1) (noFlush1_2 t hc1)]
    rw [Dat.leavesExact_idle (dat1 V c) 3 t (idleAt1_3 t hc1) (noFlush1_3 t hc1)]
    by_cases h0 : t.val = 0
    · -- the first point
      have hc0 : cond1_0 (grid1.coords t) := (hcond1_0 t).mpr h0
      rw [accV_zero V c t h0, PhiS1_castSucc V c t, PhiS1_zero V c _ _ h0, PhiA1_eq]
      iintro ⟨⟨⟨Hg0, Hg1, HS0, HS1, HS2⟩, Hg⟩, Ho, ⟨%d0, H0⟩, ⟨%d1, H1⟩, ⟨%d2, H2⟩, ⟨%d3, H3⟩⟩
      iapply (run1_A c Set.univ (grid1.coords t) (ms1_0 t) (hs1_0 t) (ms1_1 t) (hs1_1 t) (ms1_2 t) (hs1_2 t) (ms1_3 t) (hs1_3 t)
        sc0 (Memref.isWhole_whole _) sc1 (Memref.isWhole_whole _) sc2 (Memref.isWhole_whole _) hc0 hc1 (pdArr V c) (labArr V c) _ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [Hg0 Hg1 HS0 HS1 HS2 Hg]
      · isplitl [Hg0 Hg1 HS0 HS1 HS2]
        · isplitl [Hg0]; · iexact Hg0
          isplitl [Hg1]; · iexact Hg1
          isplitl [HS0]; · iexact HS0
          isplitl [HS1]; · iexact HS1
          iexact HS2
        iexact Hg
      isplitl [Ho]; · iexact Ho
      isplitl [H0]; · iexact H0
      isplitl [H1]; · iexact H1
      isplitl [H2]; · iexists _; iexact H2
      iexists _; iexact H3
    · -- a middle point
      have hc0 : ¬cond1_0 (grid1.coords t) := fun h => h0 ((hcond1_0 t).mp h)
      rw [accV_pos V c t h0, PhiS1_castSucc V c t, PhiS1_pos V c _ _ h0]
      iintro ⟨⟨⟨Hg0, Hg1, HS0, HS1, HS2⟩, Hg⟩, Ho, ⟨%d0, H0⟩, ⟨%d1, H1⟩, ⟨%d2, H2⟩, ⟨%d3, H3⟩⟩
      iapply (run1_B c Set.univ (grid1.coords t) (ms1_0 t) (hs1_0 t) (ms1_1 t) (hs1_1 t) (ms1_2 t) (hs1_2 t) (ms1_3 t) (hs1_3 t)
        sc0 (Memref.isWhole_whole _) sc1 (Memref.isWhole_whole _) sc2 (Memref.isWhole_whole _) hc0 hc1 (pdArr V c) (labArr V c) _ _ (accV V c (t.val - 1)) _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [Hg0 Hg1 HS0 HS1 HS2 Hg]
      · isplitl [Hg0 Hg1 HS0 HS1 HS2]
        · isplitl [Hg0]; · iexact Hg0
          isplitl [Hg1]; · iexact Hg1
          isplitl [HS0]; · iexact HS0
          isplitl [HS1]; · iexact HS1
          iexact HS2
        iexact Hg
      isplitl [Ho]; · iexact Ho
      isplitl [H0]; · iexact H0
      isplitl [H1]; · iexact H1
      isplitl [H2]; · iexists _; iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped rest back: the running sums' named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨Hg0, Hg1, HS0, HS1, HS2⟩, Hg⟩
  isplitl [Hg0 Hg1 HS0 HS1 HS2]
  · isplitl [Hg0]; · iexact Hg0
    isplitl [Hg1]; · iexact Hg1
    isplitl [HS0]; · iexists _; iexact HS0
    isplitl [HS1]; · iexists _; iexact HS1
    iexists _; iexact HS2
  iexact Hg

end Cert.KernelIdeal.Hand

end
-- ==== Proof.Run.lean ====
/-
  The whole program as three segments — the distance region, the triplet region, the two reshapes of the host — from the
  launch to the return, at any float instance: the buffers' contents at each boundary (a region's arrays at what its
  write-backs leave, every other buffer as it was), each region as a segment over the thread state "every unscoped
  buffer at the boundary's contents, the generator register at some state, nothing owed", and the run: every weakly
  fair execution terminates, and at the end every unscoped buffer holds the last boundary's contents.
-/
import proofs.«423472_j36249523978553_4_alg».proof.Proof.Gen.KernelIdeal.Launch
import proofs.«423472_j36249523978553_4_alg».proof.Proof.Gen.KernelIdeal.Skeleton
import proofs.«423472_j36249523978553_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«423472_j36249523978553_4_alg».proof.Proof.KFun
import proofs.«423472_j36249523978553_4_alg».proof.Proof.Gen.KernelIdeal.Regions
import proofs.«423472_j36249523978553_4_alg».proof.Proof.Region0
import proofs.«423472_j36249523978553_4_alg».proof.Proof.Region1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch: the distance region's entry. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the distance region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At the triplet region's exit. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the host's two reshapes: the return. -/
abbrev W3 : Dev nD → Valuation τ sig (Elt F) := fun c => StableHlo.after hostOps2 (W2 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

-- `iapply` of a library lemma stated over `pin pcs a p` unifies with the pinned configuration only when unification may
-- unfold plain definitions in a metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V1 m ρ) c)
    unfold Pipeline.ΦA
    iintro ⟨Hp, -, Hr⟩
    isplitl [Hr]; · iexact Hr
    iexact Hp
  hout c := by
    rw [Pipeline.ownSems0_none]
    refine BIBase.Entails.trans (hout1 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)) ]
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and in every final state every unscoped buffer holds the last boundary's
    contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Hand

end
-- ==== Proof.Frames.lean ====
/-
  The frame claim from the run: the two argument arrays end as launched — no host operation writes one, and each region
  that stages one through an input window leaves it as it found it.
-/
import proofs.«423472_j36249523978553_4_alg».proof.Proof.Gen.KernelIdeal.Launch
import proofs.«423472_j36249523978553_4_alg».proof.Proof.Gen.KernelIdeal.Skeleton
import proofs.«423472_j36249523978553_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«423472_j36249523978553_4_alg».proof.Proof.KFun
import proofs.«423472_j36249523978553_4_alg».proof.Proof.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The labels reach the end as launched: the reshapes do not write them, the triplet region reads them through an input
    window, the distance region bypasses them. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_writes_sub hostOps2 _ hostOps2_writes (by decide : main_arg0 ∉ hostOps2_W)
    _ = W1 m ρ c (Proc.devRef .tc main_arg0) := (W2_arr m ρ c 1).trans (((dat1 (V1 m ρ) c).arrAt_in 1 rfl _).trans (A_eq1 (V1 m ρ) c 1))
    _ = W0 m ρ c (Proc.devRef .tc main_arg0) := W1_of_ne m ρ c main_arg0 (by decide)
    _ = m ((c : Thread nD τ).loc main_arg0) := rfl

/-- The embeddings reach the end as launched: the reshapes do not write them, the triplet region bypasses them, the
    distance region reads them through an input window. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_writes_sub hostOps2 _ hostOps2_writes (by decide : main_arg1 ∉ hostOps2_W)
    _ = W1 m ρ c (Proc.devRef .tc main_arg1) := W2_of_ne m ρ c main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

/-- THE FRAME, at any float instance: every weakly fair execution terminates, nothing faulting, and the argument arrays
    end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m ρ c),
     (h c _ (mem_uc main_arg1 (by decide))).trans (W3_main_arg1 m ρ c)⟩) (run_all m ρ)

end Cert.KernelIdeal.Hand

end
-- ==== Proof.Final.lean ====
/-
  What the two results hold after the run, as functions of the launch memory, at any float instance: the distance
  region's output array is the distance payload of the embeddings (its one block covers it); the triplet region's two
  output arrays are the quotients of the running sums after the last point (the one point that writes them back, its
  block the whole array); the host's reshapes read their one element.
-/
import proofs.«423472_j36249523978553_4_alg».proof.Proof.Gen.KernelIdeal.Launch
import proofs.«423472_j36249523978553_4_alg».proof.Proof.Gen.KernelIdeal.Skeleton
import proofs.«423472_j36249523978553_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«423472_j36249523978553_4_alg».proof.Proof.KFun
import proofs.«423472_j36249523978553_4_alg».proof.Proof.Frames
import Idealize.ShloMosaic.Lib.StableHlo.Run
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The distance region's output -/

/-- Its two windows' block index is zero on both axes at its one point. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

theorem iblk0_0_eq (c : Dev nD) (t : Fin cfg0.N) : iblk0 V c 0 t = (V c main_arg1 : Vec F S512x128 .f32) := by
  obtain ⟨e0, e1, e2, e3⟩ := idx_facts0 t
  funext y
  show V c main_arg1 (((cfg0.win 0).blk t).view.emb y) = V c main_arg1 y
  refine congrArg (V c main_arg1) ?_
  funext a; apply Fin.ext
  match a with
  | ⟨0, _⟩ => show win0_0.index t (0 : Fin 2) * 512 + 1 * (y 0).val = (y 0).val; omega
  | ⟨1, _⟩ => show win0_0.index t (1 : Fin 2) * 128 + 1 * (y 1).val = (y 1).val; omega

theorem mem_blk0_1 (t : Fin cfg0.N) (i : S512x512.Idx) :
    i ∈ ((cfg0.win 1).blk t).view.set ↔ ∀ a : Fin 2, win0_1.index t a * S512x512.size a ≤ (i a).val ∧ (i a).val < win0_1.index t a * S512x512.size a + S512x512.size a := by
  show i ∈ ((View.whole main_v0).slice (win0_1.rect t)).set ↔ _
  rw [View.set_slice_whole, Rect.mem_set_unit]
  exact Iff.rfl

/-- After the distance region its output array is the distance payload of the embeddings array. -/
theorem arr0_final (c : Dev nD) : (dat0 V c).arrAt 1 cfg0.N = (k0_pay1 (V c main_arg1 : Vec F S512x128 .f32) : Vec F S512x512 .f32) := by
  refine (dat0 V c).arrAt_eq_of_cover 1 _ (fun t _ => ?_) (fun i => ?_)
  · obtain ⟨e0, e1, e2, e3⟩ := idx_facts0 t
    show (cfg0.win 1).cut (grid0.coords t) ((dat0 V c).after 1 t) = _
    rw [after0_1]
    unfold out0_1
    rw [View.canon_unit_zero hz2]
    simp only [View.ld_unit_zero (S := S512x128) hz2]
    rw [iblk0_0_eq]
    funext j
    show k0_pay1 (V c main_arg1 : Vec F S512x128 .f32) j = k0_pay1 (V c main_arg1 : Vec F S512x128 .f32) (((cfg0.win 1).blk t).view.emb j)
    refine congrArg _ ?_
    funext a; apply Fin.ext
    match a with
    | ⟨0, _⟩ => show (j 0).val = win0_1.index t (0 : Fin 2) * 512 + 1 * (j 0).val; omega
    | ⟨1, _⟩ => show (j 1).val = win0_1.index t (1 : Fin 2) * 512 + 1 * (j 1).val; omega
  · refine ⟨t0_0, flush0_1 t0_0, ?_⟩
    obtain ⟨e0, e1, e2, e3⟩ := idx_facts0 t0_0
    rw [mem_blk0_1]
    intro a
    match a with
    | ⟨0, _⟩ => show win0_1.index t0_0 (0 : Fin 2) * 512 ≤ (i 0).val ∧ (i 0).val < win0_1.index t0_0 (0 : Fin 2) * 512 + 512; have hi : (i 0).val < 512 := (i 0).isLt; omega
    | ⟨1, _⟩ => show win0_1.index t0_0 (1 : Fin 2) * 512 ≤ (i 1).val ∧ (i 1).val < win0_1.index t0_0 (1 : Fin 2) * 512 + 512; have hi : (i 1).val < 512 := (i 1).isLt; omega

/-! ## The triplet region's outputs -/

/-- The last point. -/
def tLast : Fin cfg1.N := ⟨63, lt_of_lt_of_eq (by decide : 63 < 64) N_1.symm⟩

theorem idx_facts1o : ∀ t : Fin cfg1.N, win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

theorem mem_blk1_2 (t : Fin cfg1.N) (i : S1x1.Idx) :
    i ∈ ((cfg1.win 2).blk t).view.set ↔ ∀ a : Fin 2, win1_2.index t a * S1x1.size a ≤ (i a).val ∧ (i a).val < win1_2.index t a * S1x1.size a + S1x1.size a := by
  show i ∈ ((View.whole main_v1_0).slice (win1_2.rect t)).set ↔ _
  rw [View.set_slice_whole, Rect.mem_set_unit]
  exact Iff.rfl
theorem mem_blk1_3 (t : Fin cfg1.N) (i : S1x1.Idx) :
    i ∈ ((cfg1.win 3).blk t).view.set ↔ ∀ a : Fin 2, win1_3.index t a * S1x1.size a ≤ (i a).val ∧ (i a).val < win1_3.index t a * S1x1.size a + S1x1.size a := by
  show i ∈ ((View.whole main_v1_1).slice (win1_3.rect t)).set ↔ _
  rw [View.set_slice_whole, Rect.mem_set_unit]
  exact Iff.rfl

/-- After the triplet region its first output array is the loss quotient of the running sums after the last point. -/
theorem arr1_final2 (c : Dev nD) : (dat1 V c).arrAt 2 cfg1.N = (lossOf (accV V c 63) : Vec F S1x1 .f32) := by
  refine (dat1 V c).arrAt_eq_of_cover 2 _ (fun t ht => ?_) (fun i => ?_)
  · obtain ⟨e0, e1, e2, e3⟩ := idx_facts1o t
    have h63 : t.val = 63 := by
      have := (flush1_2 t).mp ht; have := lt_of_lt_of_eq t.isLt N_1; omega
    show (cfg1.win 2).cut (grid1.coords t) ((dat1 V c).after 2 t) = _
    rw [after1_2, h63]
    funext j
    show lossOf (accV V c 63) j = lossOf (accV V c 63) (((cfg1.win 2).blk t).view.emb j)
    refine congrArg _ ?_
    funext a; apply Fin.ext
    match a with
    | ⟨0, _⟩ => show (j 0).val = win1_2.index t (0 : Fin 2) * 1 + 1 * (j 0).val; omega
    | ⟨1, _⟩ => show (j 1).val = win1_2.index t (1 : Fin 2) * 1 + 1 * (j 1).val; omega
  · refine ⟨tLast, (flush1_2 tLast).mpr (by decide), ?_⟩
    obtain ⟨e0, e1, e2, e3⟩ := idx_facts1o tLast
    rw [mem_blk1_2]
    intro a
    match a with
    | ⟨0, _⟩ => show win1_2.index tLast (0 : Fin 2) * 1 ≤ (i 0).val ∧ (i 0).val < win1_2.index tLast (0 : Fin 2) * 1 + 1; have hi : (i 0).val < 1 := (i 0).isLt; omega
    | ⟨1, _⟩ => show win1_2.index tLast (1 : Fin 2) * 1 ≤ (i 1).val ∧ (i 1).val < win1_2.index tLast (1 : Fin 2) * 1 + 1; have hi : (i 1).val < 1 := (i 1).isLt; omega

/-- And its second the fraction quotient. -/
theorem arr1_final3 (c : Dev nD) : (dat1 V c).arrAt 3 cfg1.N = (fracOf (accV V c 63) : Vec F S1x1 .f32) := by
  refine (dat1 V c).arrAt_eq_of_cover 3 _ (fun t ht => ?_) (fun i => ?_)
  · obtain ⟨e0, e1, e2, e3⟩ := idx_facts1o t
    have h63 : t.val = 63 := by
      have := (flush1_3 t).mp ht; have := lt_of_lt_of_eq t.isLt N_1; omega
    show (cfg1.win 3).cut (grid1.coords t) ((dat1 V c).after 3 t) = _
    rw [after1_3, h63]
    funext j
    show fracOf (accV V c 63) j = fracOf (accV V c 63) (((cfg1.win 3).blk t).view.emb j)
    refine congrArg _ ?_
    funext a; apply Fin.ext
    match a with
    | ⟨0, _⟩ => show (j 0).val = win1_3.index t (0 : Fin 2) * 1 + 1 * (j 0).val; omega
    | ⟨1, _⟩ => show (j 1).val = win1_3.index t (1 : Fin 2) * 1 + 1 * (j 1).val; omega
  · refine ⟨tLast, (flush1_3 tLast).mpr (by decide), ?_⟩
    obtain ⟨e0, e1, e2, e3⟩ := idx_facts1o tLast
    rw [mem_blk1_3]
    intro a
    match a with
    | ⟨0, _⟩ => show win1_3.index tLast (0 : Fin 2) * 1 ≤ (i 0).val ∧ (i 0).val < win1_3.index tLast (0 : Fin 2) * 1 + 1; have hi : (i 0).val < 1 := (i 0).isLt; omega
    | ⟨1, _⟩ => show win1_3.index tLast (1 : Fin 2) * 1 ≤ (i 1).val ∧ (i 1).val < win1_3.index tLast (1 : Fin 2) * 1 + 1; have hi : (i 1).val < 1 := (i 1).isLt; omega

/-! ## The results, from the launch memory -/

variable (m : (ℓ : Loc nD τ sig) → Buf (Elt F) ℓ) (ρ : Dev nD → PrngReg)

/-- The triplet region is entered with the distance table at the payload of the launched embeddings and the labels as launched. -/
theorem pdArr_V1 (c : Dev nD) : pdArr (V1 m ρ) c = (k0_pay1 (m ((c : Thread nD τ).loc main_arg1) : Vec F S512x128 .f32) : Vec F S512x512 .f32) :=
  (W1_arr m ρ c 1).trans (arr0_final (V0 m ρ) c)
theorem labArr_V1 (c : Dev nD) : labArr (V1 m ρ) c = (m ((c : Thread nD τ).loc main_arg0) : Vec F S512 .i32) :=
  W1_of_ne m ρ c main_arg0 (by decide)

/-- The running sums after the last point, from the launch memory. -/
theorem accV_V1 (c : Dev nD) : accV (V1 m ρ) c 63
    = accAt (k0_pay1 (m ((c : Thread nD τ).loc main_arg1) : Vec F S512x128 .f32)) (m ((c : Thread nD τ).loc main_arg0) : Vec F S512 .i32) 63 := by
  unfold accV; rw [pdArr_V1, labArr_V1]

/-- The first result: the host's reshape of the triplet region's first output. -/
theorem W3_main_v2 (c : Dev nD) : (W3 m ρ c (Proc.devRef .tc main_v2) : S_.Idx → Elt F .f32) ValueIdx.ix0
    = lossOf (accAt (k0_pay1 (m ((c : Thread nD τ).loc main_arg1) : Vec F S512x128 .f32)) (m ((c : Thread nD τ).loc main_arg0) : Vec F S512 .i32) 63) (ValueIdx.ix2 0 0) := by
  have e : (W3 m ρ c (Proc.devRef .tc main_v2) : S_.Idx → Elt F .f32)
      = shapeCast S_ (W2 m ρ c (Proc.devRef .tc main_v1_0) : S1x1.Idx → Elt F .f32) shapeCasts_S1x1_S_ := by
    show StableHlo.after hostOps2 _ (Proc.devRef .tc main_v2) = _
    after_results; rfl
  rw [e, shapeCast_apply _ _ ValueIdx.ix0 (ValueIdx.ix2 0 0) (by rfl)]
  rw [show (W2 m ρ c (Proc.devRef .tc main_v1_0) : S1x1.Idx → Elt F .f32) = lossOf (accV (V1 m ρ) c 63) from (W2_arr m ρ c 2).trans (arr1_final2 (V1 m ρ) c), accV_V1]

/-- The second result. -/
theorem W3_main_v3 (c : Dev nD) : (W3 m ρ c (Proc.devRef .tc main_v3) : S_.Idx → Elt F .f32) ValueIdx.ix0
    = fracOf (accAt (k0_pay1 (m ((c : Thread nD τ).loc main_arg1) : Vec F S512x128 .f32)) (m ((c : Thread nD τ).loc main_arg0) : Vec F S512 .i32) 63) (ValueIdx.ix2 0 0) := by
  have e : (W3 m ρ c (Proc.devRef .tc main_v3) : S_.Idx → Elt F .f32)
      = shapeCast S_ (W2 m ρ c (Proc.devRef .tc main_v1_1) : S1x1.Idx → Elt F .f32) shapeCasts_S1x1_S_ := by
    show StableHlo.after hostOps2 _ (Proc.devRef .tc main_v3) = _
    after_results; rfl
  rw [e, shapeCast_apply _ _ ValueIdx.ix0 (ValueIdx.ix2 0 0) (by rfl)]
  rw [show (W2 m ρ c (Proc.devRef .tc main_v1_1) : S1x1.Idx → Elt F .f32) = fracOf (accV (V1 m ρ) c 63) from (W2_arr m ρ c 3).trans (arr1_final3 (V1 m ρ) c), accV_V1]

end Cert.KernelIdeal.Hand

end
-- ==== Proof.Spec.lean ====
/-
  The triplet loss as plain mathematics on the extended reals.

  For a table of embeddings `e : 512 × 128` and labels `l : 512`:
  * `sq e i`      the squared norm of row `i`;  `gram e i j` the inner product of rows `i` and `j`;
  * `d2 e i j`    the squared distance by the Gram identity, clamped below at zero;
  * `pd e i j`    the distance: the root of `d2` where it is positive, zero elsewhere;
  * `msk l a p n` one exactly when the three positions are pairwise distinct, `a` and `p` carry the same label and
                    `a` and `n` different ones, and zero otherwise;
  * `tl l e a p n` the triplet's loss, `max (msk · (pd a p − pd a n + margin)) 0`;
  * `vld l e a p n` one where that loss exceeds `eps`, else zero;
  * `loss` = Σ tl / (Σ vld + eps),  `frac` = Σ vld / (Σ msk + eps), the sums over all 512³ triplets.
  The four float literals are kept as the words both programs print.
-/
import Idealize.ShloMosaic.PureOps.Ideal
import Idealize.ShloMosaic.Lib.ValueIdx

noncomputable section

namespace Cert.Triplet

open Idealize.ShloMosaic Idealize.ShloMosaic.ValueIdx

/-- The embeddings table and the label vector, index by index. -/
abbrev Emb : Type := (⟨2, ![512, 128]⟩ : Shape).Idx → EReal
abbrev Lab : Type := (⟨1, ![512]⟩ : Shape).Idx → BitVec 32

/-- The literals `2.0`, `1.0`, the margin `0.2` and the threshold `1e-16`, as their f32 words denote them. -/
def two : EReal := Ideal.ofBits .f32 0x40000000#32
def one : EReal := Ideal.ofBits .f32 0x3F800000#32
def margin : EReal := Ideal.ofBits .f32 0x3E4CCCCD#32
def eps : EReal := Ideal.ofBits .f32 0x24E69595#32

def sq (e : Emb) (i : Fin 512) : EReal := ∑ k : Fin 128, e (ix2 i k) * e (ix2 i k)
def gram (e : Emb) (i j : Fin 512) : EReal := ∑ k : Fin 128, e (ix2 i k) * e (ix2 j k)
def d2 (e : Emb) (i j : Fin 512) : EReal := max (sq e i + sq e j - two * gram e i j) 0
def pd (e : Emb) (i j : Fin 512) : EReal :=
  if 0 < d2 e i j then Ideal.sqrt (if 0 < d2 e i j then d2 e i j else one) else 0

/-- The triplet mask as a number. -/
def msk (l : Lab) (a p n : Fin 512) : EReal :=
  if a ≠ p ∧ a ≠ n ∧ p ≠ n ∧ l (ix1 a) = l (ix1 p) ∧ l (ix1 a) ≠ l (ix1 n) then 1 else 0

/-- The margin term of a triplet, over any distance table `P`. -/
def gap (P : Fin 512 → Fin 512 → EReal) (a p n : Fin 512) : EReal := P a p - P a n + margin

def tl (l : Lab) (e : Emb) (a p n : Fin 512) : EReal := max (msk l a p n * gap (pd e) a p n) 0
def vld (l : Lab) (e : Emb) (a p n : Fin 512) : EReal := if eps < tl l e a p n then 1 else 0

def sumTl (l : Lab) (e : Emb) : EReal := ∑ a : Fin 512, ∑ p : Fin 512, ∑ n : Fin 512, tl l e a p n
def sumVld (l : Lab) (e : Emb) : EReal := ∑ a : Fin 512, ∑ p : Fin 512, ∑ n : Fin 512, vld l e a p n
def sumMsk (l : Lab) : EReal := ∑ a : Fin 512, ∑ p : Fin 512, ∑ n : Fin 512, msk l a p n

def loss (l : Lab) (e : Emb) : EReal := Ideal.div (sumTl l e) (sumVld l e + eps)
def frac (l : Lab) (e : Emb) : EReal := Ideal.div (sumVld l e) (sumMsk l + eps)

end Cert.Triplet

end
-- ==== Proof.K0Value.lean ====
/-
  The distance kernel's stored value, index by index, on the extended reals: the Gram-identity distance `pd` of the
  specification.
-/
import proofs.«423472_j36249523978553_4_alg».proof.Proof.Gen.KernelIdeal.Skeleton
import proofs.«423472_j36249523978553_4_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.ValueIdx Idealize.SL.Sem Cert.KernelIdeal Cert.KernelIdeal.Gen Cert.Triplet

/-! ## The keepdims column and its broadcast, read at an index -/

/-- An `[a]` vector cast to the column `[a, 1]` reads, at `(i, u)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The row norms and the Gram matrix as the kernel computes them -/

/-- The lane reduction of the squared entries: one squared norm per row. -/
private def sqv (emb : Vec Ideal S512x128 .f32) : FVec Ideal S512 .f32 :=
  multiReduction .add [1] S512 (mulf emb emb) 0x00000000#32 reduces_S512x128_S512 (.inl rfl) rfl

/-- The product of the table with its own transpose, accumulated into zero. -/
private def gramv (emb : Vec Ideal S512x128 .f32) : FVec Ideal S512x512 .f32 :=
  matmul (φ₁ := .f32) (φ₂ := .f32) dot_S512x128_S512x128_S512x512_1_1_0_0_n_n (some .fp32) emb emb (constant S512x512 .f32 0x00000000#32)

/-- Row `i`'s reduction is the specification's squared norm. -/
private theorem sqv_apply (emb : Vec Ideal S512x128 .f32) (i : Fin 512) : sqv emb (ix1 i) = Triplet.sq emb i := by
  unfold sqv Triplet.sq
  refine (Ideal.multiReduction_add_single (mulf emb emb) _ reduces_S512x128_S512 _ _ (ix1 i)).trans ?_
  refine Finset.sum_congr rfl fun k _ => ?_
  have e : reduces_S512x128_S512.lift (ix1 i) k = ix2 i k :=
    funext fun a => Fin.ext (by match a with | ⟨0, _⟩ => rfl | ⟨1, _⟩ => rfl)
  exact congrArg (fun t => emb t * emb t) e

/-- The contraction of the kernel's product, as a name. -/
private abbrev dotD : DotDims S512x128 S512x128 S512x512 := dot_S512x128_S512x128_S512x512_1_1_0_0_n_n

/-- The left operand is read on row `i` of the output index … -/
private theorem dotD_lhs0 (i j : Fin 512) (q : dotD.contr.Idx) : (dotD.lhsIdx (ix2 i j) q 0).val = i.val := by
  unfold DotDims.lhsIdx
  rw [dif_neg (show ¬(0 : Fin S512x128.rank) ∈ dotD.lhsBatch by decide),
    dif_pos (show (0 : Fin S512x128.rank) ∈ dotD.lhsNonContracting by decide)]
  rfl
/-- … and the right operand on row `j`: both operands contract their lane axis. -/
private theorem dotD_rhs0 (i j : Fin 512) (q : dotD.contr.Idx) : (dotD.rhsIdx (ix2 i j) q 0).val = j.val := by
  unfold DotDims.rhsIdx
  rw [dif_neg (show ¬(0 : Fin S512x128.rank) ∈ dotD.rhsBatch by decide),
    dif_pos (show (0 : Fin S512x128.rank) ∈ dotD.rhsNonContracting by decide)]
  rfl

/-- Entry `(i, j)` of the product is the inner product of rows `i` and `j`. -/
private theorem gramv_apply (emb : Vec Ideal S512x128 .f32) (i j : Fin 512) : gramv emb (ix2 i j) = gram emb i j := by
  unfold gramv gram
  simp only [matmul]
  rw [Ideal.matmul_constant_zero_apply, ← Equiv.sum_comp (contrEquiv1 dotD 128 rfl rfl).symm]
  refine Finset.sum_congr rfl fun k _ => ?_
  have hk := contrEquiv1_symm_val dotD 128 rfl rfl k
  have el : dotD.lhsIdx (ix2 i j) ((contrEquiv1 dotD 128 rfl rfl).symm k) = ix2 i k :=
    funext fun a => Fin.ext (by
      match a with
      | ⟨0, _⟩ => exact dotD_lhs0 i j _
      | ⟨1, _⟩ => exact (dotD.lhsIdx_val_of_single rfl _ _).trans hk)
  have er : dotD.rhsIdx (ix2 i j) ((contrEquiv1 dotD 128 rfl rfl).symm k) = ix2 j k :=
    funext fun a => Fin.ext (by
      match a with
      | ⟨0, _⟩ => exact dotD_rhs0 i j _
      | ⟨1, _⟩ => exact (dotD.rhsIdx_val_of_single rfl _ _).trans hk)
  rw [el, er]

/-! ## The clamped squared distance, the comparison and the two selects -/

/-- The kernel's clamped squared distances: norms along the column plus norms along the row, less twice the product,
    kept above zero. -/
private def d2v (emb : Vec Ideal S512x128 .f32) : FVec Ideal S512x512 .f32 :=
  maximumf
    (subf
      (addf (broadcastTo S512x512 (shapeCast S512x1 (sqv emb) shapeCasts_S512_S512x1) broadcasts_S512x1_S512x512)
        (broadcastTo S512x512 (shapeCast S1x512 (sqv emb) shapeCasts_S512_S1x512) broadcasts_S1x512_S512x512))
      (mulf (broadcast S512x512 (Scalar.ofBits .f32 0x40000000#32)) (gramv emb)))
    (broadcast S512x512 (Scalar.ofBits .f32 0x00000000#32))

/-- Entry `(i, j)` of it is the specification's `d2`. -/
private theorem d2v_apply (emb : Vec Ideal S512x128 .f32) (i j : Fin 512) : d2v emb (ix2 i j) = d2 emb i j := by
  have hc : broadcastTo S512x512 (shapeCast S512x1 (sqv emb) shapeCasts_S512_S512x1) broadcasts_S512x1_S512x512 (ix2 i j)
      = Triplet.sq emb i :=
    (broadcastTo_a1_ab_apply _ _ i j).trans ((shapeCast_a_a1_apply _ _ i 0).trans (sqv_apply emb i))
  have hr : broadcastTo S512x512 (shapeCast S1x512 (sqv emb) shapeCasts_S512_S1x512) broadcasts_S1x512_S512x512 (ix2 i j)
      = Triplet.sq emb j :=
    (broadcastTo_1b_ab_apply _ _ i j).trans ((shapeCast_a_1a_apply _ _ 0 j).trans (sqv_apply emb j))
  show max (broadcastTo S512x512 (shapeCast S512x1 (sqv emb) shapeCasts_S512_S512x1) broadcasts_S512x1_S512x512 (ix2 i j)
        + broadcastTo S512x512 (shapeCast S1x512 (sqv emb) shapeCasts_S512_S1x512) broadcasts_S1x512_S512x512 (ix2 i j)
        - Ideal.ofBits .f32 0x40000000#32 * gramv emb (ix2 i j)) (Ideal.ofBits .f32 0x00000000#32)
      = max (Triplet.sq emb i + Triplet.sq emb j - two * gram emb i j) 0
  rw [hc, hr, gramv_apply, Ideal.ofBits_zero_f32]
  rfl

/-- A select on "greater than the zero word" is the `if` on positivity. -/
private theorem select_ogt_zero {α : Type} (d : EReal) (x y : α) :
    Scalar.select (Ideal.cmp .ogt d (Ideal.ofBits .f32 0x00000000#32)) x y = if 0 < d then x else y := by
  unfold Scalar.select Ideal.cmp
  rw [Ideal.ofBits_zero_f32]
  by_cases h : 0 < d <;> simp [h]

/-- Entry `(i, j)` of what the distance kernel stores is the distance between rows `i` and `j`. -/
theorem pdist_apply (emb : Vec Ideal S512x128 .f32) (i j : Fin 512) :
    k0_pay1 (F := Ideal) emb (ix2 i j) = pd emb i j := by
  unfold k0_pay1
  show Scalar.select (Ideal.cmp .ogt (d2v emb (ix2 i j)) (Ideal.ofBits .f32 0x00000000#32))
      (Ideal.sqrt (Scalar.select (Ideal.cmp .ogt (d2v emb (ix2 i j)) (Ideal.ofBits .f32 0x00000000#32))
        (d2v emb (ix2 i j)) (Ideal.ofBits .f32 0x3F800000#32)))
      (Ideal.ofBits .f32 0x00000000#32) = pd emb i j
  rw [d2v_apply, select_ogt_zero, select_ogt_zero, Ideal.ofBits_zero_f32]
  rfl

end Cert.KernelIdeal.Hand

end
-- ==== Proof.GPos.lean ====
/-
  Global positions: local position `a` of the 128-tile along grid axis `d` at grid point `i` sits at `128 · i d + a`.
-/
import proofs.«423472_j36249523978553_4_alg».proof.Proof.Gen.KernelIdeal

noncomputable section

namespace Cert.KernelIdeal.Hand

open Idealize.ShloMosaic Idealize.SL.Sem Cert.KernelIdeal

/-- The global position of local position `a` along grid axis `d` at grid point `i`. -/
def gpos (i : grid1.Coords) (d : Fin 3) (a : Fin 128) : Fin 512 :=
  ⟨128 * (i d).val + a.val, by
    have h : (i d).val < 4 := by
      have := (i d).isLt
      fin_cases d <;> simpa using this
    have := a.isLt; omega⟩

theorem gpos_val (i : grid1.Coords) (d : Fin 3) (a : Fin 128) : (gpos i d a).val = 128 * (i d).val + a.val := rfl

end Cert.KernelIdeal.Hand

end
-- ==== Proof.K1Tile.lean ====
/-
  The triplet kernel's three tiles at a grid point, index by index, on the extended reals: entry (a, p, n) of a tile is
  the specification's mask, clamped margin term and indicator at the GLOBAL positions 128·(grid coordinate) + (a, p, n).
-/
import proofs.«423472_j36249523978553_4_alg».proof.Proof.KFun
import proofs.«423472_j36249523978553_4_alg».proof.Proof.GPos
import proofs.«423472_j36249523978553_4_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.ValueIdx Idealize.SL.Sem Cert.KernelIdeal Cert.KernelIdeal.Gen Cert.Triplet

section Layout
variable {α : Type}

/-- A vector cast to a column, `[a] → [a, 1]`, reads at `(i, u)` the vector at `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column broadcast along its unit axis, `[a, 1] → [a, b]`, reads at `(p, c)` the column at `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix cast to `[a, b, 1]` reads at `(i, j, u)` the matrix at `(i, j)`. -/
private theorem shapeCast_ab_ab1_apply {a b : ℕ} (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    omega)

/-- A matrix cast to `[a, 1, b]` reads at `(i, u, j)` the matrix at `(i, j)`. -/
private theorem shapeCast_ab_a1b_apply {a b : ℕ} (x : (⟨2, ![a, b]⟩ : Shape).Idx → α) (h : (⟨2, ![a, b]⟩ : Shape).ShapeCasts ⟨3, ![a, 1, b]⟩)
    (i : Fin a) (u : Fin 1) (j : Fin b) : shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- `[a, b, 1] → [a, b, c]`: at `(i, j, k)` the operand at `(i, j, 0)`. -/
private theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- `[a, 1, c] → [a, b, c]`: at `(i, j, k)` the operand at `(i, 0, k)`. -/
private theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- `[1, b, c] → [a, b, c]`: at `(i, j, k)` the operand at `(0, j, k)`. -/
private theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Layout

/-- An integer comparison at an index compares the elements. -/
private theorem cmpi_apply {s : Shape} {w : ℕ} (pr : CmpIPredicate) (x y : IVec s w) (j : s.Idx) :
    cmpi pr x y j = IntOp.cmpi pr (x j) (y j) := rfl

/-- The number a one-bit comparison becomes: one where it holds, zero elsewhere. -/
private theorem sitofp_bit (c : BitVec 1) :
    (FloatOps.sitofp (F := Ideal) .f32 (c.setWidth 32) : EReal) = if c = 1#1 then 1 else 0 := by
  rcases BitVec.eq_zero_or_eq_one c with h | h <;> subst h
  · show (((BitVec.setWidth 32 (0#1)).toInt : ℝ) : EReal) = _
    simp
  · show (((BitVec.setWidth 32 (1#1)).toInt : ℝ) : EReal) = _
    simp

/-- The "differs" bit is set exactly where the words differ. -/
private theorem ofBool_eq_one (b : Bool) : BitVec.ofBool b = 1#1 ↔ b = true := by cases b <;> decide

private theorem cmpi_ne_eq_one {w : ℕ} (x y : BitVec w) : IntOp.cmpi .ne x y = 1#1 ↔ x ≠ y :=
  (ofBool_eq_one _).trans bne_iff_ne

/-- The "equals" bit is set exactly where the words agree. -/
private theorem cmpi_eq_eq_one {w : ℕ} (x y : BitVec w) : IntOp.cmpi .eq x y = 1#1 ↔ x = y :=
  (ofBool_eq_one _).trans beq_iff_eq

/-- Positions below 512 are told apart by their 32-bit words. -/
private theorem ofNat_pos_inj (x y : Fin 512) : BitVec.ofNat 32 x.val = BitVec.ofNat 32 y.val ↔ x = y := by
  constructor
  · intro h
    have e := congrArg BitVec.toNat h
    simp only [BitVec.toNat_ofNat] at e
    have := x.isLt; have := y.isLt
    exact Fin.ext (by omega)
  · rintro rfl; rfl

/-- The index vector along grid axis 0: the word of the global position. -/
private theorem pay8_apply (i : grid1.Coords) (a : Fin 128) : k1_pay8 i (ix1 a) = BitVec.ofNat 32 (gpos i 0 a).val := by
  unfold k1_pay8
  show IntOp.addi (Scalar.muli (BitVec.ofNat 32 (i 0).val) 128#32)
      (shapeCast S128 (iota .tc S1x128 32 [1] iota_S1x128_d1_w32) shapeCasts_S1x128_S128 (ix1 a)) = _
  rw [shapeCast_1a_a_apply]
  show BitVec.ofNat 32 (i 0).val * BitVec.ofNat 32 128 + BitVec.ofNat 32 (0 * 128 + a.val) = BitVec.ofNat 32 (128 * (i 0).val + a.val)
  rw [Nat.zero_mul, Nat.zero_add, BitVec.ofNat_add, BitVec.ofNat_mul, BitVec.mul_comm]

private theorem pay9_apply (i : grid1.Coords) (a : Fin 128) : k1_pay9 i (ix1 a) = BitVec.ofNat 32 (gpos i 1 a).val := by
  unfold k1_pay9
  show IntOp.addi (Scalar.muli (BitVec.ofNat 32 (i 1).val) 128#32)
      (shapeCast S128 (iota .tc S1x128 32 [1] iota_S1x128_d1_w32) shapeCasts_S1x128_S128 (ix1 a)) = _
  rw [shapeCast_1a_a_apply]
  show BitVec.ofNat 32 (i 1).val * BitVec.ofNat 32 128 + BitVec.ofNat 32 (0 * 128 + a.val) = BitVec.ofNat 32 (128 * (i 1).val + a.val)
  rw [Nat.zero_mul, Nat.zero_add, BitVec.ofNat_add, BitVec.ofNat_mul, BitVec.mul_comm]

private theorem pay10_apply (i : grid1.Coords) (a : Fin 128) : k1_pay10 i (ix1 a) = BitVec.ofNat 32 (gpos i 2 a).val := by
  unfold k1_pay10
  show IntOp.addi (Scalar.muli (BitVec.ofNat 32 (i 2).val) 128#32)
      (shapeCast S128 (iota .tc S1x128 32 [1] iota_S1x128_d1_w32) shapeCasts_S1x128_S128 (ix1 a)) = _
  rw [shapeCast_1a_a_apply]
  show BitVec.ofNat 32 (i 2).val * BitVec.ofNat 32 128 + BitVec.ofNat 32 (0 * 128 + a.val) = BitVec.ofNat 32 (128 * (i 2).val + a.val)
  rw [Nat.zero_mul, Nat.zero_add, BitVec.ofNat_add, BitVec.ofNat_mul, BitVec.mul_comm]

/-- The three label blocks read the labels at the global positions. -/
private theorem ldA_apply (i : grid1.Coords) (lab : Vec Ideal S512 .i32) (a : Fin 128) :
    View.ld lab (rA i) (ix1 a) = lab (ix1 (gpos i 0 a)) := by
  show lab ((rA i).idx (ix1 a)) = _
  refine congrArg lab (funext fun d => ?_)
  match d with
  | ⟨0, _⟩ =>
    refine Fin.ext ?_
    show k1_off3 i 0 + 1 * a.val = 128 * (i 0).val + a.val
    rw [k1_off3_eq, Nat.one_mul]; rfl

private theorem ldP_apply (i : grid1.Coords) (lab : Vec Ideal S512 .i32) (a : Fin 128) :
    View.ld lab (rP i) (ix1 a) = lab (ix1 (gpos i 1 a)) := by
  show lab ((rP i).idx (ix1 a)) = _
  refine congrArg lab (funext fun d => ?_)
  match d with
  | ⟨0, _⟩ =>
    refine Fin.ext ?_
    show k1_off4 i 0 + 1 * a.val = 128 * (i 1).val + a.val
    rw [k1_off4_eq, Nat.one_mul]; rfl

private theorem ldN_apply (i : grid1.Coords) (lab : Vec Ideal S512 .i32) (a : Fin 128) :
    View.ld lab (rN i) (ix1 a) = lab (ix1 (gpos i 2 a)) := by
  show lab ((rN i).idx (ix1 a)) = _
  refine congrArg lab (funext fun d => ?_)
  match d with
  | ⟨0, _⟩ =>
    refine Fin.ext ?_
    show k1_off5 i 0 + 1 * a.val = 128 * (i 2).val + a.val
    rw [k1_off5_eq, Nat.one_mul]; rfl

/-- A product of two zero-or-one factors is the zero-or-one of the conjunction. -/
private theorem b01_mul (P Q : Prop) [Decidable P] [Decidable Q] :
    (if P then (1 : EReal) else 0) * (if Q then 1 else 0) = if P ∧ Q then 1 else 0 := by
  by_cases hP : P <;> by_cases hQ : Q <;> simp [hP, hQ]

/-- The two distance blocks read the table at the global positions. -/
private theorem ldAP_apply (i : grid1.Coords) (P : Vec Ideal S512x512 .f32) (a p : Fin 128) :
    View.ld P (rAP i) (ix2 a p) = P (ix2 (gpos i 0 a) (gpos i 1 p)) := by
  show P ((rAP i).idx (ix2 a p)) = _
  refine congrArg P (funext fun d => ?_)
  match d with
  | ⟨0, _⟩ =>
    refine Fin.ext ?_
    show k1_off1 i 0 + 1 * a.val = 128 * (i 0).val + a.val
    rw [k1_off1_eq, Nat.one_mul]; rfl
  | ⟨1, _⟩ =>
    refine Fin.ext ?_
    show k1_off1 i 1 + 1 * p.val = 128 * (i 1).val + p.val
    rw [k1_off1_eq, Nat.one_mul]; rfl

private theorem ldAN_apply (i : grid1.Coords) (P : Vec Ideal S512x512 .f32) (a n : Fin 128) :
    View.ld P (rAN i) (ix2 a n) = P (ix2 (gpos i 0 a) (gpos i 2 n)) := by
  show P ((rAN i).idx (ix2 a n)) = _
  refine congrArg P (funext fun d => ?_)
  match d with
  | ⟨0, _⟩ =>
    refine Fin.ext ?_
    show k1_off2 i 0 + 1 * a.val = 128 * (i 0).val + a.val
    rw [k1_off2_eq, Nat.one_mul]; rfl
  | ⟨1, _⟩ =>
    refine Fin.ext ?_
    show k1_off2 i 1 + 1 * n.val = 128 * (i 2).val + n.val
    rw [k1_off2_eq, Nat.one_mul]; rfl

/-- The mask tile. -/
theorem tileMsk_apply (i : grid1.Coords) (lab : Vec Ideal S512 .i32) (a p n : Fin 128) :
    tileMsk (F := Ideal) i lab (ix3 a p n) = msk lab (gpos i 0 a) (gpos i 1 p) (gpos i 2 n) := by
  unfold tileMsk k1_pay13 k1_pay11 k1_pay12
  -- every layout operation read at the index: five comparisons of a column entry with a row entry
  simp only [mulf_apply, broadcastTo_ab1_abc_apply, broadcastTo_a1c_abc_apply, broadcastTo_1bc_abc_apply,
    shapeCast_ab_ab1_apply, shapeCast_ab_a1b_apply, shapeCast_ab_1ab_apply, sitofp_apply, extui_apply, cmpi_apply,
    broadcastTo_a1_ab_apply, broadcastTo_1b_ab_apply, shapeCast_a_a1_apply, shapeCast_a_1a_apply, sitofp_bit]
  -- the entries are the labels and the position words at the global positions
  rw [ldA_apply, ldP_apply, ldN_apply, pay8_apply, pay9_apply, pay10_apply]
  -- five zero-or-one factors multiplied are the zero-or-one of the conjunction
  simp only [cmpi_ne_eq_one, cmpi_eq_eq_one, b01_mul, ne_eq, ofNat_pos_inj]
  unfold msk
  refine if_congr ?_ rfl rfl
  constructor
  · rintro ⟨⟨⟨h1, h2⟩, h3, h4⟩, h5⟩
    exact ⟨h1, h3, h5, h2, h4⟩
  · rintro ⟨h1, h3, h5, h2, h4⟩
    exact ⟨⟨⟨h1, h2⟩, h3, h4⟩, h5⟩

/-- The loss tile, in the kernel's arrangement: the mask times the clamped margin term. -/
theorem tileTl_apply (i : grid1.Coords) (P : Vec Ideal S512x512 .f32) (lab : Vec Ideal S512 .i32) (a p n : Fin 128) :
    tileTl (F := Ideal) i P lab (ix3 a p n)
      = msk lab (gpos i 0 a) (gpos i 1 p) (gpos i 2 n) * max (gap (fun x y => P (ix2 x y)) (gpos i 0 a) (gpos i 1 p) (gpos i 2 n)) 0 := by
  rw [← tileMsk_apply]
  unfold tileTl tileMsk k1_pay14 k1_pay6 k1_pay7
  simp only [mulf_apply, maximumf_apply, addf_apply, subf_apply, broadcast_apply, broadcastTo_ab1_abc_apply,
    broadcastTo_a1c_abc_apply, shapeCast_ab_ab1_apply, shapeCast_ab_a1b_apply, shapeCast_self]
  rw [ldAP_apply, ldAN_apply]
  -- the margin is the same literal on both sides; the clamp's literal is zero
  refine congrArg₂ (· * ·) rfl (congrArg₂ max rfl ?_)
  exact Ideal.ofBits_zero_f32

/-- The indicator tile: one where the loss tile exceeds the threshold. -/
theorem tileVld_apply (i : grid1.Coords) (P : Vec Ideal S512x512 .f32) (lab : Vec Ideal S512 .i32) (a p n : Fin 128) :
    tileVld (F := Ideal) i P lab (ix3 a p n) = if eps < tileTl (F := Ideal) i P lab (ix3 a p n) then 1 else 0 := by
  unfold tileVld tileTl k1_pay15
  simp only [sitofp_apply, extui_apply, cmpf_apply, broadcast_apply, sitofp_bit]
  -- the ordered "greater than" bit is set exactly where the threshold lies strictly below
  refine if_congr ?_ rfl rfl
  exact (ofBool_eq_one _).trans decide_eq_true_iff

end Cert.KernelIdeal.Hand

end
-- ==== Proof.K1Sum.lean ====
/-
  The triplet kernel's reductions and running sums on the extended reals: a tile reduced one axis at a time is its triple
  sum; the reset value is zero; so the running sums after position `n` are the sums of the tiles of positions `0 … n`;
  and the two stored quotients.
-/
import proofs.«423472_j36249523978553_4_alg».proof.Proof.KFun
import proofs.«423472_j36249523978553_4_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.ValueIdx Idealize.SL.Sem Cert.KernelIdeal Cert.KernelIdeal.Gen Cert.Triplet

/-- Reducing the last axis of a 128³ tile: at `(a, p)` the sum over `n` of the tile at `(a, p, n)`. -/
private theorem redLast (v : FVec Ideal S128x128x128 .f32) (a p : Fin 128) :
    multiReduction .add [2] S128x128 v 0x00000000#32 reduces_S128x128x128_S128x128 (.inl rfl) rfl (ix2 a p)
      = ∑ n : Fin 128, v (ix3 a p n) := by
  refine (Ideal.multiReduction_add_single v _ reduces_S128x128x128_S128x128 _ _ (ix2 a p)).trans ?_
  refine Finset.sum_congr rfl fun n _ => congrArg v ?_
  funext c
  match c with
  | ⟨0, _⟩ => rfl
  | ⟨1, _⟩ => rfl
  | ⟨2, _⟩ => rfl

/-- Reducing the middle axis of a `128 × 128` table viewed `128 × 128 × 1`: at `(a, 0)` the sum over `p` of the
    table at `(a, p)` (the two row-major positions agree because the trailing coordinate is `0`). -/
private theorem redMid (w : FVec Ideal S128x128 .f32) (a : Fin 128) (z : Fin 1) :
    multiReduction .add [1] S128x1 (shapeCast S128x128x1 w shapeCasts_S128x128_S128x128x1) 0x00000000#32
        reduces_S128x128x1_S128x1 (.inl rfl) rfl (ix2 a z)
      = ∑ p : Fin 128, w (ix2 a p) := by
  refine (Ideal.multiReduction_add_single _ _ reduces_S128x128x1_S128x1 _ _ (ix2 a z)).trans ?_
  refine Finset.sum_congr rfl fun p _ => ?_
  refine shapeCast_apply _ _ _ _ ?_
  rw [Shape.rowMajor_val_two, Shape.rowMajor_val_three]
  have hz := z.isLt
  show a.val * 128 + p.val = (a.val * 128 + p.val) * 1 + z.val
  omega

/-- Reducing the first axis of a `128 × 1` column viewed `128 × 1 × 1`: at the one index the sum over `a` of the
    column at `(a, 0)`. -/
private theorem redFirst (u : FVec Ideal S128x1 .f32) (z z' : Fin 1) :
    multiReduction .add [0] S1x1 (shapeCast S128x1x1 u shapeCasts_S128x1_S128x1x1) 0x00000000#32
        reduces_S128x1x1_S1x1 (.inl rfl) rfl (ix2 z z')
      = ∑ a : Fin 128, u (ix2 a z) := by
  refine (Ideal.multiReduction_add_single _ _ reduces_S128x1x1_S1x1 _ _ (ix2 z z')).trans ?_
  refine Finset.sum_congr rfl fun a _ => ?_
  refine shapeCast_apply _ _ _ _ ?_
  rw [Shape.rowMajor_val_two, Shape.rowMajor_val_three]
  have hz := z.isLt
  have hz' := z'.isLt
  show a.val * 1 + z.val = (a.val * 1 + z.val) * 1 + z'.val
  omega

/-- A `1 × 1` value viewed `1 × 1 × 1` and back is itself. -/
private theorem castBack (x : FVec Ideal S1x1 .f32) :
    shapeCast S1x1 (shapeCast S1x1x1 x shapeCasts_S1x1_S1x1x1) shapeCasts_S1x1x1_S1x1 = x :=
  shapeCast_shapeCast x _ _

/-- The three reductions in a row: the triple sum of the tile. -/
private theorem red3 (v : FVec Ideal S128x128x128 .f32) (y : S1x1.Idx) :
    multiReduction .add [0] S1x1
        (shapeCast S128x1x1
          (multiReduction .add [1] S128x1
            (shapeCast S128x128x1
              (multiReduction .add [2] S128x128 v 0x00000000#32 reduces_S128x128x128_S128x128 (.inl rfl) rfl)
              shapeCasts_S128x128_S128x128x1)
            0x00000000#32 reduces_S128x128x1_S128x1 (.inl rfl) rfl)
          shapeCasts_S128x1_S128x1x1)
        0x00000000#32 reduces_S128x1x1_S1x1 (.inl rfl) rfl y
      = ∑ a : Fin 128, ∑ p : Fin 128, ∑ n : Fin 128, v (ix3 a p n) := by
  rw [eq_ix2 y]
  refine (redFirst _ _ _).trans ?_
  refine Finset.sum_congr rfl fun a _ => ?_
  refine (redMid _ _ _).trans ?_
  exact Finset.sum_congr rfl fun p _ => redLast v a p

/-- A 128³ tile reduced along its last, then its middle, then its first axis, added to the running sum. -/
theorem pay16_apply (v : FVec Ideal S128x128x128 .f32) (prev : Vec Ideal S1x1 .f32) (y : S1x1.Idx) :
    k1_pay16 (F := Ideal) v prev y = prev y + ∑ a : Fin 128, ∑ p : Fin 128, ∑ n : Fin 128, v (ix3 a p n) := by
  unfold k1_pay16
  rw [shapeCast_self, castBack]
  exact congrArg (prev y + ·) (red3 v y)
theorem pay17_apply (v : FVec Ideal S128x128x128 .f32) (prev : Vec Ideal S1x1 .f32) (y : S1x1.Idx) :
    k1_pay17 (F := Ideal) v prev y = prev y + ∑ a : Fin 128, ∑ p : Fin 128, ∑ n : Fin 128, v (ix3 a p n) := by
  unfold k1_pay17
  rw [shapeCast_self, castBack]
  exact congrArg (prev y + ·) (red3 v y)
theorem pay18_apply (v : FVec Ideal S128x128x128 .f32) (prev : Vec Ideal S1x1 .f32) (y : S1x1.Idx) :
    k1_pay18 (F := Ideal) v prev y = prev y + ∑ a : Fin 128, ∑ p : Fin 128, ∑ n : Fin 128, v (ix3 a p n) := by
  unfold k1_pay18
  rw [shapeCast_self, castBack]
  exact congrArg (prev y + ·) (red3 v y)

/-- The reset values are zero. -/
theorem pay3_apply (y : S1x1.Idx) : k1_pay3 (F := Ideal) y = 0 := by
  unfold k1_pay3
  rw [shapeCast_self]
  exact Ideal.ofBits_zero_f32
theorem pay4_apply (y : S1x1.Idx) : k1_pay4 (F := Ideal) y = 0 := by
  unfold k1_pay4
  rw [shapeCast_self]
  exact Ideal.ofBits_zero_f32
theorem pay5_apply (y : S1x1.Idx) : k1_pay5 (F := Ideal) y = 0 := by
  unfold k1_pay5
  rw [shapeCast_self]
  exact Ideal.ofBits_zero_f32

/-- The stored quotients. -/
theorem pay1_apply (x y : Vec Ideal S1x1 .f32) (j : S1x1.Idx) :
    k1_pay1 (F := Ideal) x y j = Ideal.div (x j) (y j + eps) := by
  unfold k1_pay1
  rfl
theorem pay2_apply (x y : Vec Ideal S1x1 .f32) (j : S1x1.Idx) :
    k1_pay2 (F := Ideal) x y j = Ideal.div (x j) (y j + eps) := by
  unfold k1_pay2
  rfl

/-- The running sums after position `n`: the tiles of positions `0 … n`, summed. -/
theorem accAt_tl (P : Vec Ideal S512x512 .f32) (lab : Vec Ideal S512 .i32) (n : ℕ) (y : S1x1.Idx) :
    (accAt (F := Ideal) P lab n).1 y
      = ∑ s ∈ Finset.range (n + 1), ∑ a : Fin 128, ∑ p : Fin 128, ∑ k : Fin 128, tileTl (F := Ideal) (grid1.coords (pt s)) P lab (ix3 a p k) := by
  induction n with
  | zero =>
    show k1_pay16 _ _ y = _
    rw [pay16_apply, Finset.sum_range_one]
    show k1_pay3 (F := Ideal) y + _ = _
    rw [pay3_apply, zero_add]
  | succ n ih =>
    show k1_pay16 _ _ y = _
    rw [pay16_apply, Finset.sum_range_succ _ (n + 1)]
    exact congrArg (· + _) ih
theorem accAt_vld (P : Vec Ideal S512x512 .f32) (lab : Vec Ideal S512 .i32) (n : ℕ) (y : S1x1.Idx) :
    (accAt (F := Ideal) P lab n).2.1 y
      = ∑ s ∈ Finset.range (n + 1), ∑ a : Fin 128, ∑ p : Fin 128, ∑ k : Fin 128, tileVld (F := Ideal) (grid1.coords (pt s)) P lab (ix3 a p k) := by
  induction n with
  | zero =>
    show k1_pay17 _ _ y = _
    rw [pay17_apply, Finset.sum_range_one]
    show k1_pay4 (F := Ideal) y + _ = _
    rw [pay4_apply, zero_add]
  | succ n ih =>
    show k1_pay17 _ _ y = _
    rw [pay17_apply, Finset.sum_range_succ _ (n + 1)]
    exact congrArg (· + _) ih
theorem accAt_msk (P : Vec Ideal S512x512 .f32) (lab : Vec Ideal S512 .i32) (n : ℕ) (y : S1x1.Idx) :
    (accAt (F := Ideal) P lab n).2.2 y
      = ∑ s ∈ Finset.range (n + 1), ∑ a : Fin 128, ∑ p : Fin 128, ∑ k : Fin 128, tileMsk (F := Ideal) (grid1.coords (pt s)) lab (ix3 a p k) := by
  induction n with
  | zero =>
    show k1_pay18 _ _ y = _
    rw [pay18_apply, Finset.sum_range_one]
    show k1_pay5 (F := Ideal) y + _ = _
    rw [pay5_apply, zero_add]
  | succ n ih =>
    show k1_pay18 _ _ y = _
    rw [pay18_apply, Finset.sum_range_succ _ (n + 1)]
    exact congrArg (· + _) ih

end Cert.KernelIdeal.Hand

end
-- ==== Proof.Regroup.lean ====
/-
  Regrouping a sum over all 512³ triplets by the 4 × 4 × 4 grid of 128³ tiles, in the grid's row-major order of points;
  and the law that lets the 0/1 mask move inside the clamp at zero.
-/
import proofs.«423472_j36249523978553_4_alg».proof.Proof.KFun
import proofs.«423472_j36249523978553_4_alg».proof.Proof.GPos
import proofs.«423472_j36249523978553_4_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.ValueIdx Idealize.SL.Sem Cert.KernelIdeal Cert.KernelIdeal.Gen Cert.Triplet

/-- Position `128 · c + a` of the long axis (reduced mod 512, so that it is defined for every `c`). -/
private def q (c : ℕ) (a : Fin 128) : Fin 512 := ⟨(128 * c + a.val) % 512, Nat.mod_lt _ (by norm_num)⟩

/-- A sum over `range (m · n)` read in `m` consecutive blocks of length `n`. -/
private theorem sum_range_blocks {M : Type*} [AddCommMonoid M] (N m n : ℕ) (hN : N = m * n) (g : ℕ → M) :
    ∑ s ∈ Finset.range N, g s = ∑ i ∈ Finset.range m, ∑ j ∈ Finset.range n, g (n * i + j) := by
  subst hN
  induction m with
  | zero => simp
  | succ m ih =>
    rw [Nat.succ_mul, Finset.sum_range_add, ih, Finset.sum_range_succ, Nat.mul_comm m n]

/-- A sum over the 512 positions of an axis, read as four blocks of 128. -/
private theorem sum_split (g : Fin 512 → EReal) :
    ∑ x : Fin 512, g x = ∑ c ∈ Finset.range 4, ∑ a : Fin 128, g (q c a) := by
  have h1 : ∑ x : Fin 512, g x = ∑ s ∈ Finset.range 512, g ⟨s % 512, Nat.mod_lt _ (by norm_num)⟩ := by
    rw [← Fin.sum_univ_eq_sum_range (fun s => g ⟨s % 512, Nat.mod_lt _ (by norm_num)⟩) 512]
    exact Finset.sum_congr rfl (fun x _ => congrArg g (Fin.ext (Nat.mod_eq_of_lt x.isLt).symm))
  rw [h1, sum_range_blocks 512 4 128 rfl]
  refine Finset.sum_congr rfl fun c _ => ?_
  exact (Fin.sum_univ_eq_sum_range (fun j => g ⟨(128 * c + j) % 512, Nat.mod_lt _ (by norm_num)⟩) 128).symm

/-- The 64 grid positions in order are the triples of base-4 digits in lexicographic order. -/
private theorem sum_points {M : Type*} [AddCommMonoid M] (H : ℕ → ℕ → ℕ → M) :
    ∑ s ∈ Finset.range 64, H (s / 16) (s / 4 % 4) (s % 4)
      = ∑ x ∈ Finset.range 4, ∑ y ∈ Finset.range 4, ∑ z ∈ Finset.range 4, H x y z := by
  rw [sum_range_blocks 64 4 16 rfl]
  refine Finset.sum_congr rfl fun x hx => ?_
  rw [sum_range_blocks 16 4 4 rfl]
  refine Finset.sum_congr rfl fun y hy => ?_
  refine Finset.sum_congr rfl fun z hz => ?_
  rw [Finset.mem_range] at hx hy hz
  have e1 : (16 * x + (4 * y + z)) / 16 = x := by omega
  have e2 : (16 * x + (4 * y + z)) / 4 % 4 = y := by omega
  have e3 : (16 * x + (4 * y + z)) % 4 = z := by omega
  rw [e1, e2, e3]

/-- Every point's coordinates, by evaluation. -/
private theorem coords_all : ∀ t : Fin grid1.N,
    (grid1.coords t 0).val = t.val / 16 ∧ (grid1.coords t 1).val = t.val / 4 % 4 ∧ (grid1.coords t 2).val = t.val % 4 := by
  decide +kernel

/-- The grid coordinates of position `s`: row-major over 4 × 4 × 4. -/
theorem coords_pt (s : ℕ) (hs : s < 64) :
    (grid1.coords (pt s) 0).val = s / 16 ∧ (grid1.coords (pt s) 1).val = s / 4 % 4 ∧ (grid1.coords (pt s) 2).val = s % 4 := by
  have h := coords_all (pt s)
  have hv : (pt s).val = s := Nat.mod_eq_of_lt hs
  rw [hv] at h
  exact h

/-- A sum over all triplets is the sum, over the 64 grid points in order, of the sums over each point's tile. -/
theorem sum_tiles (f : Fin 512 → Fin 512 → Fin 512 → EReal) :
    ∑ a : Fin 512, ∑ p : Fin 512, ∑ n : Fin 512, f a p n
      = ∑ s ∈ Finset.range 64, ∑ a : Fin 128, ∑ p : Fin 128, ∑ n : Fin 128,
          f (gpos (grid1.coords (pt s)) 0 a) (gpos (grid1.coords (pt s)) 1 p) (gpos (grid1.coords (pt s)) 2 n) := by
  -- the sum over one tile, as a function of the tile's three block numbers
  let H : ℕ → ℕ → ℕ → EReal := fun x y z => ∑ a : Fin 128, ∑ p : Fin 128, ∑ n : Fin 128, f (q x a) (q y p) (q z n)
  -- at position `s` the block numbers are the base-4 digits of `s`
  have hR : ∀ s ∈ Finset.range 64, (∑ a : Fin 128, ∑ p : Fin 128, ∑ n : Fin 128,
        f (gpos (grid1.coords (pt s)) 0 a) (gpos (grid1.coords (pt s)) 1 p) (gpos (grid1.coords (pt s)) 2 n))
      = H (s / 16) (s / 4 % 4) (s % 4) := by
    intro s hs
    have hs' : s < 64 := Finset.mem_range.mp hs
    obtain ⟨h0, h1, h2⟩ := coords_pt s hs'
    have e0 : ∀ a, gpos (grid1.coords (pt s)) 0 a = q (s / 16) a := fun a =>
      Fin.ext (by
        have := gpos_val (grid1.coords (pt s)) 0 a
        have ha := a.isLt
        show _ = (128 * (s / 16) + a.val) % 512
        rw [this, h0]; omega)
    have e1 : ∀ a, gpos (grid1.coords (pt s)) 1 a = q (s / 4 % 4) a := fun a =>
      Fin.ext (by
        have := gpos_val (grid1.coords (pt s)) 1 a
        have ha := a.isLt
        show _ = (128 * (s / 4 % 4) + a.val) % 512
        rw [this, h1]; omega)
    have e2 : ∀ a, gpos (grid1.coords (pt s)) 2 a = q (s % 4) a := fun a =>
      Fin.ext (by
        have := gpos_val (grid1.coords (pt s)) 2 a
        have ha := a.isLt
        show _ = (128 * (s % 4) + a.val) % 512
        rw [this, h2]; omega)
    simp only [e0, e1, e2, H]
  calc ∑ a : Fin 512, ∑ p : Fin 512, ∑ n : Fin 512, f a p n
      = ∑ x ∈ Finset.range 4, ∑ a : Fin 128, ∑ y ∈ Finset.range 4, ∑ p : Fin 128, ∑ z ∈ Finset.range 4, ∑ n : Fin 128,
          f (q x a) (q y p) (q z n) := by
        simp only [sum_split]
    _ = ∑ x ∈ Finset.range 4, ∑ y ∈ Finset.range 4, ∑ z ∈ Finset.range 4, H x y z := by
        refine Finset.sum_congr rfl fun x _ => ?_
        refine Finset.sum_comm.trans ?_
        refine Finset.sum_congr rfl fun y _ => ?_
        refine (Finset.sum_congr rfl fun a _ => Finset.sum_comm).trans ?_
        exact Finset.sum_comm
    _ = ∑ s ∈ Finset.range 64, H (s / 16) (s / 4 % 4) (s % 4) := (sum_points H).symm
    _ = _ := (Finset.sum_congr rfl hR).symm

/-- The mask is zero or one, so it commutes with the clamp at zero (on the extended reals `0 · x = 0` for every `x`). -/
theorem msk_mul_max (l : Lab) (a p n : Fin 512) (x : EReal) : msk l a p n * max x 0 = max (msk l a p n * x) 0 := by
  unfold msk
  split
  · rw [one_mul, one_mul]
  · rw [zero_mul, zero_mul, max_self]

end Cert.KernelIdeal.Hand

end
-- ==== Proof.KValue.lean ====
/-
  The kernel's two results as the specification's loss and fraction: the distance table is `pd`, each tile is the
  specification at the global positions, the running sums after the last point are the sums over all triplets
  (regrouped by tiles), and the mask moves inside the clamp.
-/
import proofs.«423472_j36249523978553_4_alg».proof.Proof.K0Value
import proofs.«423472_j36249523978553_4_alg».proof.Proof.K1Tile
import proofs.«423472_j36249523978553_4_alg».proof.Proof.K1Sum
import proofs.«423472_j36249523978553_4_alg».proof.Proof.Regroup

noncomputable section

namespace Cert.KernelIdeal.Hand

open Idealize.ShloMosaic Idealize.ShloMosaic.ValueIdx Idealize.SL.Sem Cert.KernelIdeal Cert.KernelIdeal.Gen Cert.Triplet

/-- The stored distance table, read entry by entry, is the specification's distance function. -/
private theorem pdist_fun (emb : Vec Ideal S512x128 .f32) :
    (fun x y => k0_pay1 (F := Ideal) emb (ix2 x y)) = pd emb := by
  funext x y
  exact pdist_apply emb x y

/-- Entry (a, p, n) of the loss tile over the stored distance table is the triplet's loss at the global positions:
    the 0/1 mask moves inside the clamp at zero. -/
private theorem tileTl_spec (i : grid1.Coords) (lab : Vec Ideal S512 .i32) (emb : Vec Ideal S512x128 .f32)
    (a p n : Fin 128) :
    tileTl (F := Ideal) i (k0_pay1 (F := Ideal) emb) lab (ix3 a p n)
      = tl lab emb (gpos i 0 a) (gpos i 1 p) (gpos i 2 n) := by
  rw [tileTl_apply, msk_mul_max, pdist_fun]
  rfl

/-- Entry (a, p, n) of the indicator tile is the specification's indicator at the global positions. -/
private theorem tileVld_spec (i : grid1.Coords) (lab : Vec Ideal S512 .i32) (emb : Vec Ideal S512x128 .f32)
    (a p n : Fin 128) :
    tileVld (F := Ideal) i (k0_pay1 (F := Ideal) emb) lab (ix3 a p n)
      = vld lab emb (gpos i 0 a) (gpos i 1 p) (gpos i 2 n) := by
  rw [tileVld_apply, tileTl_spec]
  rfl

/-- After the last grid point the first running sum is the sum of the losses of all triplets. -/
private theorem acc_sumTl (lab : Vec Ideal S512 .i32) (emb : Vec Ideal S512x128 .f32) (y : S1x1.Idx) :
    (accAt (F := Ideal) (k0_pay1 (F := Ideal) emb) lab 63).1 y = sumTl lab emb := by
  rw [accAt_tl]
  unfold sumTl
  rw [sum_tiles]
  refine Finset.sum_congr rfl (fun s _ => Finset.sum_congr rfl (fun a _ =>
    Finset.sum_congr rfl (fun p _ => Finset.sum_congr rfl (fun n _ => ?_))))
  exact tileTl_spec _ lab emb a p n

/-- After the last grid point the second running sum counts the triplets whose loss exceeds the threshold. -/
private theorem acc_sumVld (lab : Vec Ideal S512 .i32) (emb : Vec Ideal S512x128 .f32) (y : S1x1.Idx) :
    (accAt (F := Ideal) (k0_pay1 (F := Ideal) emb) lab 63).2.1 y = sumVld lab emb := by
  rw [accAt_vld]
  unfold sumVld
  rw [sum_tiles]
  refine Finset.sum_congr rfl (fun s _ => Finset.sum_congr rfl (fun a _ =>
    Finset.sum_congr rfl (fun p _ => Finset.sum_congr rfl (fun n _ => ?_))))
  exact tileVld_spec _ lab emb a p n

/-- After the last grid point the third running sum counts the admissible triplets. -/
private theorem acc_sumMsk (lab : Vec Ideal S512 .i32) (emb : Vec Ideal S512x128 .f32) (y : S1x1.Idx) :
    (accAt (F := Ideal) (k0_pay1 (F := Ideal) emb) lab 63).2.2 y = sumMsk lab := by
  rw [accAt_msk]
  unfold sumMsk
  rw [sum_tiles]
  refine Finset.sum_congr rfl (fun s _ => Finset.sum_congr rfl (fun a _ =>
    Finset.sum_congr rfl (fun p _ => Finset.sum_congr rfl (fun n _ => ?_))))
  exact tileMsk_apply _ lab a p n

theorem loss_value (lab : Vec Ideal S512 .i32) (emb : Vec Ideal S512x128 .f32) :
    lossOf (accAt (F := Ideal) (k0_pay1 (F := Ideal) emb) lab 63) (ix2 0 0) = loss lab emb := by
  unfold lossOf
  rw [pay1_apply, acc_sumTl, acc_sumVld]
  rfl

theorem frac_value (lab : Vec Ideal S512 .i32) (emb : Vec Ideal S512x128 .f32) :
    fracOf (accAt (F := Ideal) (k0_pay1 (F := Ideal) emb) lab 63) (ix2 0 0) = frac lab emb := by
  unfold fracOf
  rw [pay2_apply, acc_sumVld, acc_sumMsk]
  rfl

end Cert.KernelIdeal.Hand

end
-- ==== Proof.RefParts.lean ====
/-
  The reference's distance table and its triplet mask, index by index, on the extended reals: the specification's `pd`
  and `msk`.
-/
import proofs.«423472_j36249523978553_4_alg».proof.Proof.Gen.ReferenceIdeal.Read
import proofs.«423472_j36249523978553_4_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Hand

open Idealize.ShloMosaic Idealize.ShloMosaic.ValueIdx Idealize.SL.Sem Cert.ReferenceIdeal Cert.ReferenceIdeal.Read Cert.Triplet

/-! ### Bits of decidable propositions -/

/-- A select on the bit of a proposition is the `if` on the proposition. -/
private theorem select_ofBool {α : Type} (P : Prop) [Decidable P] (a b : α) :
    Scalar.select (BitVec.ofBool (decide P)) a b = if P then a else b := by
  unfold Scalar.select
  by_cases h : P
  · simp [h]
  · simp [h]

/-- The conjunction of two bits. -/
private theorem ofBool_and (P Q : Prop) [Decidable P] [Decidable Q] :
    BitVec.ofBool (decide P) &&& BitVec.ofBool (decide Q) = BitVec.ofBool (decide (P ∧ Q)) := by
  by_cases hp : P <;> by_cases hq : Q <;> simp [hp, hq]

/-- The complement of a bit. -/
private theorem ofBool_not (P : Prop) [Decidable P] :
    ~~~ BitVec.ofBool (decide P) = BitVec.ofBool (decide (¬ P)) := by
  by_cases hp : P <;> simp [hp]

/-- A bit read as an unsigned integer and made a float is one or zero. -/
private theorem uitofp_ofBool (P : Prop) [Decidable P] :
    FloatOps.uitofp (F := Ideal) .f32 (BitVec.ofBool (decide P)) = if P then (1 : EReal) else 0 := by
  show (((BitVec.ofBool (decide P)).toNat : ℝ) : EReal) = _
  by_cases hp : P <;> simp [hp]

/-- Positions below 512 are told apart by their 32-bit words. -/
private theorem ofNat32_eq_iff (x y : Fin 512) : BitVec.ofNat 32 x.val = BitVec.ofNat 32 y.val ↔ x = y := by
  constructor
  · intro h
    have h2 := congrArg BitVec.toNat h
    simp only [BitVec.toNat_ofNat] at h2
    have hx := x.isLt
    have hy := y.isLt
    exact Fin.ext (by omega)
  · rintro rfl; rfl

/-! ### The distance table -/

private theorem idx_v1 (i : Fin 512) (k : Fin 128) : idx_main_v1 (ix1 i) k = ix2 i k :=
  funext fun a => Fin.ext (by match a with | ⟨0, _⟩ => rfl | ⟨1, _⟩ => rfl)

private theorem lidx_v8 (i j : Fin 512) (k : Fin 128) : lidx_main_v8 (ix2 i j) k = ix2 i k :=
  funext fun a => Fin.ext (by match a with | ⟨0, _⟩ => rfl | ⟨1, _⟩ => rfl)

private theorem ridx_v8 (i j : Fin 512) (k : Fin 128) : idx_main_v7 (ridx_main_v8 (ix2 i j) k) = ix2 j k :=
  funext fun a => Fin.ext (by match a with | ⟨0, _⟩ => rfl | ⟨1, _⟩ => rfl)

private theorem idx_v4 (i j : Fin 512) : idx_main_v2 (idx_main_v4 (ix2 i j)) = ix1 i :=
  funext fun a => Fin.ext (by match a with | ⟨0, _⟩ => rfl)

private theorem idx_v5 (i j : Fin 512) : idx_main_v3 (idx_main_v5 (ix2 i j)) = ix1 j :=
  funext fun a => Fin.ext (by match a with | ⟨0, _⟩ => rfl)

/-- The row sums of squares. -/
private theorem ref_sq (emb : (⟨S512x128, .f32⟩ : BufTy).Contents (Elt Ideal)) (i : Fin 512) :
    val_main_v1 (F := Ideal) emb (ix1 i) = sq emb i := by
  unfold Triplet.sq
  rw [val_main_v1_apply, val_main_cst_apply, Ideal.ofBits_def, Ideal.ofBits_zero_f32, zero_add]
  refine Finset.sum_congr rfl fun k _ => ?_
  rw [val_main_v0_apply, idx_v1, Ideal.mulf_def]

/-- The table of inner products. -/
private theorem ref_gram (emb : (⟨S512x128, .f32⟩ : BufTy).Contents (Elt Ideal)) (i j : Fin 512) :
    val_main_v8 (F := Ideal) emb (ix2 i j) = gram emb i j := by
  unfold gram
  rw [val_main_v8_apply]
  refine Finset.sum_congr rfl fun k _ => ?_
  rw [val_main_v7_apply, lidx_v8, ridx_v8]

/-- The clamped squared distances. -/
private theorem ref_d2 (emb : (⟨S512x128, .f32⟩ : BufTy).Contents (Elt Ideal)) (i j : Fin 512) :
    val_main_v13 (F := Ideal) emb (ix2 i j) = d2 emb i j := by
  unfold d2 two
  rw [val_main_v13_apply, val_main_v11_apply, val_main_v6_apply, val_main_v4_apply, val_main_v2_apply,
    val_main_v5_apply, val_main_v3_apply, val_main_v10_apply, val_main_v9_apply, val_main_cst_0_apply,
    val_main_v12_apply, val_main_cst_1_apply, idx_v4, idx_v5, ref_sq, ref_sq, ref_gram]
  simp only [Ideal.maximumf_def, Ideal.subf_def, Ideal.addf_def, Ideal.mulf_def, Ideal.ofBits_def,
    Ideal.ofBits_zero_f32]

/-- The reference's pairwise distances. -/
theorem ref_pd (emb : (⟨S512x128, .f32⟩ : BufTy).Contents (Elt Ideal)) (i j : Fin 512) :
    val_main_v18 (F := Ideal) emb (ix2 i j) = pd emb i j := by
  unfold pd one
  rw [val_main_v18_apply, val_main_v17_apply, val_main_v16_apply, val_main_v15_apply, val_main_v14_apply,
    val_main_cst_2_apply, val_main_call0_v1_apply, val_main_call0_v0_apply, val_main_cst_3_apply,
    val_main_call1_v1_apply, val_main_call1_v0_apply, val_main_cst_4_apply, ref_d2]
  simp only [Ideal.cmpf_def, Ideal.ofBits_def, Ideal.ofBits_zero_f32, Ideal.hostUnary_sqrt_def]
  show Scalar.select (BitVec.ofBool (decide (0 < d2 emb i j)))
    (Ideal.sqrt (Scalar.select (BitVec.ofBool (decide (0 < d2 emb i j))) (d2 emb i j) _)) 0 = _
  rw [select_ofBool, select_ofBool]

/-! ### The triplet mask -/

private theorem idx_v34 (a p n : Fin 512) : idx_main_v32 (idx_main_v34 (ix3 a p n)) = ix2 a p :=
  funext fun d => Fin.ext (by match d with | ⟨0, _⟩ => rfl | ⟨1, _⟩ => rfl)

private theorem idx_v35 (a p n : Fin 512) : idx_main_v33 (idx_main_v35 (ix3 a p n)) = ix2 a n :=
  funext fun d => Fin.ext (by match d with | ⟨0, _⟩ => rfl | ⟨1, _⟩ => rfl)

private theorem idx_v38 (a p n : Fin 512) : idx_main_v37 (idx_main_v38 (ix3 a p n)) = ix2 p n :=
  funext fun d => Fin.ext (by match d with | ⟨0, _⟩ => rfl | ⟨1, _⟩ => rfl)

private theorem idx_v48 (a p n : Fin 512) : idx_main_v45 (idx_main_v48 (ix3 a p n)) = ix2 a p :=
  funext fun d => Fin.ext (by match d with | ⟨0, _⟩ => rfl | ⟨1, _⟩ => rfl)

private theorem idx_v49 (a p n : Fin 512) : idx_main_v46 (idx_main_v49 (ix3 a p n)) = ix2 a n :=
  funext fun d => Fin.ext (by match d with | ⟨0, _⟩ => rfl | ⟨1, _⟩ => rfl)

private theorem idx_v42 (x y : Fin 512) : idx_main_v40 (idx_main_v42 (ix2 x y)) = ix1 y :=
  funext fun d => Fin.ext (by match d with | ⟨0, _⟩ => rfl)

private theorem idx_v43 (x y : Fin 512) : idx_main_v41 (idx_main_v43 (ix2 x y)) = ix1 x :=
  funext fun d => Fin.ext (by match d with | ⟨0, _⟩ => rfl)

/-- The table of distinct positions: the row's position word plus zero against the column's. -/
private theorem ref_ne (x y : Fin 512) :
    val_main_v31 (F := Ideal) (ix2 x y) = BitVec.ofBool (decide (x ≠ y)) := by
  rw [val_main_v31_apply, val_main_v30_apply, val_main_v29_apply, val_main_v26_apply, val_main_v27_apply,
    val_main_v28_apply, val_main_c_apply]
  show ~~~ BitVec.ofBool (BitVec.ofNat 32 x.val + 0#32 == BitVec.ofNat 32 y.val) = _
  rw [BitVec.add_zero, ← ofBool_not]
  congr 2
  by_cases h : x = y
  · subst h; simp
  · have h' : ¬ BitVec.ofNat 32 x.val = BitVec.ofNat 32 y.val := fun e => h ((ofNat32_eq_iff x y).mp e)
    simp [h, h']

/-- The table of equal labels. -/
private theorem ref_eq (lab : (⟨S512, .i32⟩ : BufTy).Contents (Elt Ideal)) (x y : Fin 512) :
    val_main_v44 (F := Ideal) lab (ix2 x y) = BitVec.ofBool (decide (lab (ix1 x) = lab (ix1 y))) := by
  rw [val_main_v44_apply, val_main_v42_apply, val_main_v40_apply, val_main_v43_apply, val_main_v41_apply,
    idx_v42, idx_v43]
  show BitVec.ofBool (lab (ix1 y) == lab (ix1 x)) = _
  congr 1
  by_cases h : lab (ix1 x) = lab (ix1 y)
  · simp [h]
  · have h' : ¬ lab (ix1 y) = lab (ix1 x) := fun e => h e.symm
    simp [h, h']

/-- The reference's triplet mask, converted to a float. -/
theorem ref_msk (lab : (⟨S512, .i32⟩ : BufTy).Contents (Elt Ideal)) (a p n : Fin 512) :
    val_main_v52 (F := Ideal) lab (ix3 a p n) = msk lab a p n := by
  unfold msk
  rw [val_main_v52_apply, val_main_v51_apply, val_main_v39_apply, val_main_v36_apply, val_main_v34_apply,
    val_main_v32_apply, val_main_v35_apply, val_main_v33_apply, val_main_v38_apply, val_main_v37_apply,
    val_main_v50_apply, val_main_v48_apply, val_main_v45_apply, val_main_v49_apply, val_main_v47_apply,
    val_main_v46_apply, idx_v34, idx_v35, idx_v38, idx_v48, idx_v49, ref_ne, ref_ne, ref_ne, ref_eq, ref_eq]
  show FloatOps.uitofp (F := Ideal) .f32
    (((BitVec.ofBool (decide (a ≠ p)) &&& BitVec.ofBool (decide (a ≠ n))) &&& BitVec.ofBool (decide (p ≠ n))) &&&
      (BitVec.ofBool (decide (lab (ix1 a) = lab (ix1 p))) &&&
        ~~~ BitVec.ofBool (decide (lab (ix1 a) = lab (ix1 n))))) = _
  rw [ofBool_not, ofBool_and, ofBool_and, ofBool_and, ofBool_and, uitofp_ofBool]
  refine if_congr ?_ rfl rfl
  constructor
  · rintro ⟨⟨⟨h1, h2⟩, h3⟩, h4, h5⟩; exact ⟨h1, h2, h3, h4, h5⟩
  · rintro ⟨h1, h2, h3, h4, h5⟩; exact ⟨⟨⟨h1, h2⟩, h3⟩, h4, h5⟩

end Cert.ReferenceIdeal.Hand

end
-- ==== Proof.RefSpec.lean ====
/-
  The reference's two results are the specification's loss and fraction: each stage read at an index, its three total
  sums as triple sums over the positions.
-/
import proofs.«423472_j36249523978553_4_alg».proof.Proof.RefParts

noncomputable section

namespace Cert.ReferenceIdeal.Hand

open Idealize.ShloMosaic Idealize.ShloMosaic.ValueIdx Idealize.SL.Sem Cert.ReferenceIdeal Cert.ReferenceIdeal.Read Cert.Triplet

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The margin term: the two broadcasts of the distance table read it at (a, p) and at (a, n). -/
theorem ref_gap (emb : (⟨S512x128, .f32⟩ : BufTy).Contents (Elt Ideal)) (a p n : Fin 512) :
    val_main_v25 (F := Ideal) emb (ix3 a p n) = gap (pd emb) a p n := by
  rw [val_main_v25_apply, val_main_v23_apply, val_main_v21_apply, val_main_v19_apply, val_main_v22_apply,
    val_main_v20_apply, val_main_v24_apply, val_main_cst_5_apply]
  have h1 : idx_main_v19 (idx_main_v21 (ix3 a p n)) = ix2 a p := by
    funext d; match d with | ⟨0, _⟩ => rfl | ⟨1, _⟩ => rfl
  have h2 : idx_main_v20 (idx_main_v22 (ix3 a p n)) = ix2 a n := by
    funext d; match d with | ⟨0, _⟩ => rfl | ⟨1, _⟩ => rfl
  rw [h1, h2, ref_pd, ref_pd]
  rfl

/-- The clamped, masked margin term is the triplet's loss. -/
theorem ref_tl (lab : (⟨S512, .i32⟩ : BufTy).Contents (Elt Ideal)) (emb : (⟨S512x128, .f32⟩ : BufTy).Contents (Elt Ideal))
    (a p n : Fin 512) : val_main_v55 (F := Ideal) lab emb (ix3 a p n) = tl lab emb a p n := by
  rw [val_main_v55_apply, val_main_v53_apply, val_main_v54_apply, val_main_cst_6_apply, ref_msk, ref_gap]
  show max (msk lab a p n * gap (pd emb) a p n) (Ideal.ofBits .f32 0x00000000#32) = _
  rw [Ideal.ofBits_zero_f32]
  rfl

/-- The comparison with the threshold, as a float, is the indicator of a positive loss. -/
theorem ref_vld (lab : (⟨S512, .i32⟩ : BufTy).Contents (Elt Ideal)) (emb : (⟨S512x128, .f32⟩ : BufTy).Contents (Elt Ideal))
    (a p n : Fin 512) : val_main_v58 (F := Ideal) lab emb (ix3 a p n) = vld lab emb a p n := by
  rw [val_main_v58_apply, val_main_v57_apply, val_main_v56_apply, val_main_cst_7_apply, ref_tl]
  show (((Ideal.cmp .ogt (tl lab emb a p n) eps).toNat : ℝ) : EReal) = _
  unfold vld Ideal.cmp
  by_cases h : eps < tl lab emb a p n
  · simp [h]
  · simp [h]

theorem ref_sumVld (lab : (⟨S512, .i32⟩ : BufTy).Contents (Elt Ideal)) (emb : (⟨S512x128, .f32⟩ : BufTy).Contents (Elt Ideal)) :
    val_main_v59 (F := Ideal) lab emb ix0 = sumVld lab emb := by
  rw [val_main_v59_apply, val_main_cst_8_apply, sum_idx3]
  show Ideal.ofBits .f32 0x00000000#32 + _ = _
  rw [Ideal.ofBits_zero_f32, zero_add]
  unfold sumVld
  exact Finset.sum_congr rfl fun a _ => Finset.sum_congr rfl fun p _ => Finset.sum_congr rfl fun n _ => ref_vld lab emb a p n

theorem ref_sumMsk (lab : (⟨S512, .i32⟩ : BufTy).Contents (Elt Ideal)) :
    val_main_v60 (F := Ideal) lab ix0 = sumMsk lab := by
  rw [val_main_v60_apply, val_main_cst_9_apply, sum_idx3]
  show Ideal.ofBits .f32 0x00000000#32 + _ = _
  rw [Ideal.ofBits_zero_f32, zero_add]
  unfold sumMsk
  exact Finset.sum_congr rfl fun a _ => Finset.sum_congr rfl fun p _ => Finset.sum_congr rfl fun n _ => ref_msk lab a p n

theorem ref_sumTl (lab : (⟨S512, .i32⟩ : BufTy).Contents (Elt Ideal)) (emb : (⟨S512x128, .f32⟩ : BufTy).Contents (Elt Ideal)) :
    val_main_v63 (F := Ideal) lab emb ix0 = sumTl lab emb := by
  rw [val_main_v63_apply, val_main_cst_11_apply, sum_idx3]
  show Ideal.ofBits .f32 0x00000000#32 + _ = _
  rw [Ideal.ofBits_zero_f32, zero_add]
  unfold sumTl
  exact Finset.sum_congr rfl fun a _ => Finset.sum_congr rfl fun p _ => Finset.sum_congr rfl fun n _ => ref_tl lab emb a p n

theorem ref_loss (lab : (⟨S512, .i32⟩ : BufTy).Contents (Elt Ideal)) (emb : (⟨S512x128, .f32⟩ : BufTy).Contents (Elt Ideal)) :
    val_main_v65 (F := Ideal) lab emb ix0 = loss lab emb := by
  rw [val_main_v65_apply, val_main_v64_apply, val_main_cst_12_apply, ref_sumTl, ref_sumVld]
  rfl

theorem ref_frac (lab : (⟨S512, .i32⟩ : BufTy).Contents (Elt Ideal)) (emb : (⟨S512x128, .f32⟩ : BufTy).Contents (Elt Ideal)) :
    val_main_v62 (F := Ideal) lab emb ix0 = frac lab emb := by
  rw [val_main_v62_apply, val_main_v61_apply, val_main_cst_10_apply, ref_sumVld, ref_sumMsk]
  rfl

end Cert.ReferenceIdeal.Hand

end
-- ==== Proof.lean ====
/-
  The proof of `Cert.Claim`: the batch-all triplet loss computed by two kernels — the pairwise distances by the Gram
  identity, then a 4 × 4 × 4 grid accumulating, tile by tile, the sum of the clamped triplet losses, the count of the
  positive ones and the count of the valid triplets — against the same loss written with whole-array operations.

  Both programs, read on the extended reals, compute the specification's `loss` and `frac` (Proof/Spec.lean):
  the distance tables agree entry by entry; a tile's entry (a, p, n) is the specification at the global positions
  128 · (grid coordinate) + (a, p, n); the three running sums after the last grid point are the three sums over all 512³
  triplets, regrouped tile by tile (addition on the extended reals is commutative and associative; no cancellation is
  used, so the precondition is never opened); and the kernel's `mask · max(x, 0)` is the reference's
  `max(mask · x, 0)` because the mask is zero or one.

  The frames: each program runs as three segments (the two kernel regions, then the host's two reshapes); the triplet
  region carries its three running sums in scratch from point to point, which its invariant names.
-/
import proofs.«423472_j36249523978553_4_alg».proof.Defs
import proofs.«423472_j36249523978553_4_alg».proof.Proof.Gen.Kernel
import proofs.«423472_j36249523978553_4_alg».proof.Proof.Gen.KernelIdeal
import proofs.«423472_j36249523978553_4_alg».proof.Proof.Gen.ReferenceIdeal
import proofs.«423472_j36249523978553_4_alg».proof.Proof.Gen.Pre_finite_inputs
import proofs.«423472_j36249523978553_4_alg».proof.Proof.Gen.ReferenceIdeal.Run
import proofs.«423472_j36249523978553_4_alg».proof.Proof.Gen.ReferenceIdeal.Read
import proofs.«423472_j36249523978553_4_alg».proof.Proof.Bits.Frames
import proofs.«423472_j36249523978553_4_alg».proof.Proof.Final
import proofs.«423472_j36249523978553_4_alg».proof.Proof.KValue
import proofs.«423472_j36249523978553_4_alg».proof.Proof.RefSpec
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Hand.frame (F := Bits) m ρ

/-- So does the idealized program. -/
theorem frame_ki : Cert.frame_KernelIdeal := fun m ρ _ => Cert.KernelIdeal.Hand.frame (F := Ideal) m ρ

/-- The reference is a host program: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

open Cert.KernelIdeal Cert.KernelIdeal.Hand in
/-- On the extended reals both programs end with the specification's loss and fraction of the (agreeing) arguments. -/
theorem algebraic : Cert.algebraic_KernelIdeal_ReferenceIdeal := by
  intro m ρ m' ρ' _ hagree
  refine ⟨fun c => W3 (F := Ideal) m ρ c (Proc.devRef .tc main_v2), fun c => W3 (F := Ideal) m ρ c (Proc.devRef .tc main_v3), ?_, ?_⟩
  · exact (θ_run Cert.KernelIdeal.defs _ _).mono (fun r h c =>
      ⟨h c _ (mem_uc main_v2 (by decide)), h c _ (mem_uc main_v3 (by decide)),
       (h c _ (mem_uc main_arg0 (by decide))).trans (W3_main_arg0 m ρ c),
       (h c _ (mem_uc main_arg1 (by decide))).trans (W3_main_arg1 m ρ c)⟩) (run_all (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · rw [Cert.ReferenceIdeal.Read.val_main_v65_eq, (hagree c).1, (hagree c).2]
      funext i
      obtain rfl := ValueIdx.eq_ix0 i
      exact (Cert.ReferenceIdeal.Hand.ref_loss _ _).trans (((W3_main_v2 (F := Ideal) m ρ c).trans (loss_value _ _)).symm)
    · rw [Cert.ReferenceIdeal.Read.val_main_v62_eq, (hagree c).1, (hagree c).2]
      funext i
      obtain rfl := ValueIdx.eq_ix0 i
      exact (Cert.ReferenceIdeal.Hand.ref_frac _ _).trans (((W3_main_v3 (F := Ideal) m ρ c).trans (frac_value _ _)).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
